-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .une main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x256 .f32) (main_arg1 : FVec F S8192x8192 .f32) (main_arg2 : FVec F S256x128 .f32) (main_arg3 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S8192x128 : Shape := ⟨2, ![8192, 128]⟩
abbrev S1024x256 : Shape := ⟨2, ![1024, 256]⟩
abbrev S1024x128 : Shape := ⟨2, ![1024, 128]⟩
abbrev S1x128 : Shape := ⟨2, ![1, 128]⟩
abbrev S1024x2048 : Shape := ⟨2, ![1024, 2048]⟩
abbrev S2048x128 : Shape := ⟨2, ![2048, 128]⟩
abbrev S1024x1 : Shape := ⟨2, ![1024, 1]⟩
abbrev S1024 : Shape := ⟨1, ![1024]⟩

abbrev nBuf : Space → Nat
  | .hbm => 7
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128, .f32⟩
  | .hbm, ⟨4, _⟩ => ⟨S8192x128, .f32⟩
  | .hbm, ⟨5, _⟩ => ⟨S1x128, .f32⟩
  | .hbm, ⟨6, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1024x128, .f32⟩
  | .local _ .vmem, ⟨4, _⟩ => ⟨S1024x128, .f32⟩
  | .local _ .vmem, ⟨5, _⟩ => ⟨S1024x2048, .f32⟩
  | .local _ .vmem, ⟨6, _⟩ => ⟨S1024x2048, .f32⟩
  | .local _ .vmem, ⟨7, _⟩ => ⟨S2048x128, .f32⟩
  | .local _ .vmem, ⟨8, _⟩ => ⟨S2048x128, .f32⟩
  | .local _ .vmem, ⟨9, _⟩ => ⟨S1024x128, .f32⟩
  | .local _ .vmem, ⟨10, _⟩ => ⟨S1024x128, .f32⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  shapeCasts_S128_S1x128 : S128.ShapeCasts S1x128
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x256_S256x128_S1024x128_1_0_0_1_n_n_wf : DotDims.WF S1024x256 S256x128 S1024x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .i1⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x128, .f32⟩
  | .hbm, ⟨26, _⟩ => ⟨S8192x128, .f32⟩
  | .hbm, ⟨27, _⟩ => ⟨S1x128, .f32⟩
  | .hbm, ⟨28, _⟩ => ⟨S8192x128, .f32⟩
  | .hbm, ⟨29, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KRegion0.lean ====
/-
  The first kernel region: the feature product, one block of 1024 rows per grid point.

  At each of its 8 points the body reads the point's 1024 × 256 block of the features and the whole 256 × 128 weight,
  and stores their matrix product (the two operands narrowed to the short float format first, the accumulator zero)
  over the whole 1024 × 128 output block.  It keeps nothing from one point to the next, so what the pipeline needs of it
  is one fact: from the two input buffers at their blocks and the output buffer at anything, the body runs to the
  inputs unchanged and the output at that product (`sound_kernel0`), the output written as one piece that covers
  the block.  Everything here is stated at a parameter `V`, the contents of the core's buffers when the region is
  entered, and for any float instance.
-/
import proofs.«131101_j59588376264936_1_alg».proof.Proof.Gen.Kernel.Launch
import proofs.«131101_j59588376264936_1_alg».proof.Proof.Gen.Kernel.Skeleton
import proofs.«131101_j59588376264936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point, fetched there or kept from the first. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S1024x256 := Rect.unit (s := S1024x256) ![0, 0] S1024x256.size inb_S1024x256_S1024x256_0_0
abbrev rW0 : Rect S256x128 := Rect.unit (s := S256x128) ![0, 0] S256x128.size inb_S256x128_S256x128_0_0
abbrev rO0 : Rect S1024x128 := Rect.unit (s := S1024x128) ![0, 0] S1024x128.size inb_S1024x128_S1024x128_0_0

/-- The output buffer after the body: the product of the two loaded blocks, stored as one piece. -/
def out0_2 (x0 : Vec F S1024x256 .f32) (x1 : Vec F S256x128 .f32) : Vec F S1024x128 .f32 :=
  View.canon [⟨rO0, k0_pay1 (View.ld x0 rX0) (View.ld x1 rW0)⟩]

/-- The one store covers the buffer. -/
theorem cover0_2 (p0 : Vec F S1024x128 .f32) (y : S1024x128.Idx) :
    ∃ pc ∈ ([⟨rO0, p0⟩] : List (View.Piece (Elt F) S1024x128 .f32)), y ∈ pc.1.set :=
  View.cover_of_tiled [⟨rO0, p0⟩] S1024x128.size (by rfl) y

/-! ## The body's triple -/

set_option maxHeartbeats 1000000 in
/-- The body on whole staging memrefs: the inputs at `x0`, `x1` and the output at anything run to the inputs as they
    were and the output at `out0_2 x0 x1`. -/
theorem sound_kernel0 (c : Dev nD) (E : Set ℕ) (i : grid0.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the first region on core `c`: the arrays as the region finds them; after the body each input's
    buffer at its block and the output's at the product of the two input blocks; the invariant is the rest of the core's
    scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
/-
  The second kernel region: aggregation over the adjacency, 8 row blocks by 4 column blocks.

  Point `t` of the 32 is row block `t / 4`, column block `t % 4`.  Two scratch buffers live across the four points of
  a row block: a 1024 × 128 accumulator of the partial products of the adjacency's tile with the matching 2048 rows
  of the feature product, and a 1024 × 1 accumulator of the tile's row sums.  At the first column block both are set
  to zero before the tile is added; at the last, after the tile is added, the body stores the output block: the
  accumulator plus the row block's own features, scaled by the inverse of (row sum + 1), plus the bias.  At the other
  points the output's buffer is not touched.

  So the body has three cases by `t % 4` (0: reset and add; 1, 2: add; 3: add and store the output), each run once
  symbolically on whole buffers (`sound_kernel1_R`, `_M`, `_L`); what the two scratch buffers hold after point `n` is
  a recursion on `n` (`scrAt`), and the region's invariant carries them at those contents from the second point on.
  Everything is stated at a parameter `V`, the contents of the core's buffers at entry, for any float instance.
-/
import proofs.«131101_j59588376264936_1_alg».proof.Proof.Gen.Kernel.Launch
import proofs.«131101_j59588376264936_1_alg».proof.Proof.Gen.Kernel.Skeleton
import proofs.«131101_j59588376264936_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's staging buffer holds the point's tile. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column block of the feature product is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row block of the feature product is in its staging buffer at every point, fetched there or kept since the row block's first point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias is in its staging buffer at every point, fetched at the first. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's accesses (each buffer whole), its two conditions, and its three cases -/

abbrev rA1 : Rect S1024x2048 := Rect.unit (s := S1024x2048) ![0, 0] S1024x2048.size inb_S1024x2048_S1024x2048_0_0
abbrev rS1 : Rect S2048x128 := Rect.unit (s := S2048x128) ![0, 0] S2048x128.size inb_S2048x128_S2048x128_0_0
abbrev rO1 : Rect S1024x128 := Rect.unit (s := S1024x128) ![0, 0] S1024x128.size inb_S1024x128_S1024x128_0_0
abbrev rR1 : Rect S1024x1 := Rect.unit (s := S1024x1) ![0, 0] S1024x1.size inb_S1024x1_S1024x1_0_0
abbrev rB1 : Rect S1x128 := Rect.unit (s := S1x128) ![0, 0] S1x128.size inb_S1x128_S1x128_0_0

theorem hz2 : (![0, 0] : Fin 2 → ℕ) = fun _ => 0 := by funext a; fin_cases a <;> rfl

/-- the reset condition of the body at grid coordinates i -/
abbrev cond1 (i : grid1.Coords) : BitVec 1 := Scalar.cmpi .ne (Scalar.extui (Scalar.cmpi .eq (BitVec.ofNat 32 (i 1).val) 0#32) : BitVec 32) 0#32

def accNext (x : Vec F S1024x2048 .f32) (y : Vec F S2048x128 .f32) (acc : Vec F S1024x128 .f32) : Vec F S1024x128 .f32 := k1_pay4 x acc y
def rsNext (x : Vec F S1024x2048 .f32) (rs : Vec F S1024x1 .f32) : Vec F S1024x1 .f32 := k1_pay3 x rs
def outNext (accN : Vec F S1024x128 .f32) (z : Vec F S1024x128 .f32) (rsN : Vec F S1024x1 .f32) (bb : Vec F S1x128 .f32) : Vec F S1024x128 .f32 := k1_pay5 accN z rsN bb

theorem coverO1 (p0 : Vec F S1024x128 .f32) (L : List (View.Piece (Elt F) S1024x128 .f32)) (y : S1024x128.Idx) :
    ∃ pc ∈ ((⟨rO1, p0⟩ : View.Piece (Elt F) S1024x128 .f32) :: L), y ∈ pc.1.set := by
  obtain ⟨pc, hm, hy⟩ := View.cover_of_tiled [(⟨rO1, p0⟩ : View.Piece (Elt F) S1024x128 .f32)] S1024x128.size (by rfl) y
  rw [List.mem_singleton] at hm; subst hm
  exact ⟨_, List.mem_cons_self .., hy⟩
theorem coverR1 (p0 : Vec F S1024x1 .f32) (L : List (View.Piece (Elt F) S1024x1 .f32)) (y : S1024x1.Idx) :
    ∃ pc ∈ ((⟨rR1, p0⟩ : View.Piece (Elt F) S1024x1 .f32) :: L), y ∈ pc.1.set := by
  obtain ⟨pc, hm, hy⟩ := View.cover_of_tiled [(⟨rR1, p0⟩ : View.Piece (Elt F) S1024x1 .f32)] S1024x1.size (by rfl) y
  rw [List.mem_singleton] at hm; subst hm
  exact ⟨_, List.mem_cons_self .., hy⟩

set_option maxHeartbeats 1000000 in
theorem sound_kernel1_M (c : Dev nD) (E : Set ℕ) (i : grid1.Coords) (h1 : ¬ cond1 i = 1#1) (h2 : ¬ k1_cond2 i = 1#1) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole)
    (x : Vec F S1024x2048 .f32) (y : Vec F S2048x128 .f32) (acc : Vec F S1024x128 .f32) (rs : Vec F S1024x1 .f32) (K : PUnit → sProp 𝕄) :
    iprop(owns (c : Thread nD τ) arg2 fullShare x ∗ owns (c : Thread nD τ) arg3 fullShare y ∗ owns (c : Thread nD τ) arg7 fullShare acc ∗ owns (c : Thread nD τ) arg8 fullShare rs
        ∗ (iprop(owns (c : Thread nD τ) arg2 fullShare x ∗ owns (c : Thread nD τ) arg3 fullShare y
            ∗ owns (c : Thread nD τ) arg7 fullShare (accNext x y acc) ∗ owns (c : Thread nD τ) arg8 fullShare (rsNext x rs)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f2, %hf2, H2⟩, ⟨%f3, %hf3, H3⟩, ⟨%f7, %hf7, H7⟩, ⟨%f8, %hf8, H8⟩, Hk⟩
  subst hf2; subst hf3; subst hf7; subst hf8
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H7]
  · iexists _; isplitr
    swap; · iexact H7
    ipureintro
    sl_unfold_words
    rw [View.read_writes_eq_canon _ _ _ (coverO1 _ _)]
    simp only [View.canon_cons_unit_zero (S := S1024x128) hz2, View.canon_unit_zero (S := S1024x128) hz2, View.canon_cons_unit_zero (S := S1024x1) hz2, View.canon_unit_zero (S := S1024x1) hz2,
      View.readCov_unit_zero (S := S1024x128) _ hz2, View.readCov_unit_zero (S := S1024x1) _ hz2, View.readAt_eq_ld,
      View.ld_unit_zero (S := S1024x2048) hz2, View.ld_unit_zero (S := S2048x128) hz2, View.ld_unit_zero (S := S1024x128) hz2, View.ld_unit_zero (S := S1024x1) hz2, View.ld_unit_zero (S := S1x128) hz2,
      accNext, rsNext, outNext]
  iexists _; isplitr
  swap; · iexact H8
  ipureintro
  sl_unfold_words
  rw [View.read_writes_eq_canon _ _ _ (coverR1 _ _)]
  simp only [View.canon_cons_unit_zero (S := S1024x128) hz2, View.canon_unit_zero (S := S1024x128) hz2, View.canon_cons_unit_zero (S := S1024x1) hz2, View.canon_unit_zero (S := S1024x1) hz2,
    View.readCov_unit_zero (S := S1024x128) _ hz2, View.readCov_unit_zero (S := S1024x1) _ hz2, View.readAt_eq_ld,
    View.ld_unit_zero (S := S1024x2048) hz2, View.ld_unit_zero (S := S2048x128) hz2, View.ld_unit_zero (S := S1024x128) hz2, View.ld_unit_zero (S := S1024x1) hz2, View.ld_unit_zero (S := S1x128) hz2,
    accNext, rsNext, outNext]

set_option maxHeartbeats 1000000 in
theorem sound_kernel1_R (c : Dev nD) (E : Set ℕ) (i : grid1.Coords) (h1 : cond1 i = 1#1) (h2 : ¬ k1_cond2 i = 1#1) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole)
    (x : Vec F S1024x2048 .f32) (y : Vec F S2048x128 .f32) (K : PUnit → sProp 𝕄) :
    iprop(owns (c : Thread nD τ) arg2 fullShare x ∗ owns (c : Thread nD τ) arg3 fullShare y ∗ (∃ d, owns (c : Thread nD τ) arg7 fullShare d) ∗ (∃ d, owns (c : Thread nD τ) arg8 fullShare d)
        ∗ (iprop(owns (c : Thread nD τ) arg2 fullShare x ∗ owns (c : Thread nD τ) arg3 fullShare y
            ∗ owns (c : Thread nD τ) arg7 fullShare (accNext x y k1_pay1) ∗ owns (c : Thread nD τ) arg8 fullShare (rsNext x k1_pay2)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f2, %hf2, H2⟩, ⟨%f3, %hf3, H3⟩, ⟨%d7, %f7, -, H7⟩, ⟨%d8, %f8, -, H8⟩, Hk⟩
  subst hf2; subst hf3
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H7]
  · iexists _; isplitr
    swap; · iexact H7
    ipureintro
    sl_unfold_words
    rw [View.read_writes_eq_canon _ _ _ (coverO1 _ _)]
    simp only [View.canon_cons_unit_zero (S := S1024x128) hz2, View.canon_unit_zero (S := S1024x128) hz2, View.canon_cons_unit_zero (S := S1024x1) hz2, View.canon_unit_zero (S := S1024x1) hz2,
      View.readCov_unit_zero (S := S1024x128) _ hz2, View.readCov_unit_zero (S := S1024x1) _ hz2, View.readAt_eq_ld,
      View.ld_unit_zero (S := S1024x2048) hz2, View.ld_unit_zero (S := S2048x128) hz2, View.ld_unit_zero (S := S1024x128) hz2, View.ld_unit_zero (S := S1024x1) hz2, View.ld_unit_zero (S := S1x128) hz2,
      accNext, rsNext, outNext]
  iexists _; isplitr
  swap; · iexact H8
  ipureintro
  sl_unfold_words
  rw [View.read_writes_eq_canon _ _ _ (coverR1 _ _)]
  simp only [View.canon_cons_unit_zero (S := S1024x128) hz2, View.canon_unit_zero (S := S1024x128) hz2, View.canon_cons_unit_zero (S := S1024x1) hz2, View.canon_unit_zero (S := S1024x1) hz2,
    View.readCov_unit_zero (S := S1024x128) _ hz2, View.readCov_unit_zero (S := S1024x1) _ hz2, View.readAt_eq_ld,
    View.ld_unit_zero (S := S1024x2048) hz2, View.ld_unit_zero (S := S2048x128) hz2, View.ld_unit_zero (S := S1024x128) hz2, View.ld_unit_zero (S := S1024x1) hz2, View.ld_unit_zero (S := S1x128) hz2,
    accNext, rsNext, outNext]

set_option maxHeartbeats 1000000 in
theorem sound_kernel1_L (c : Dev nD) (E : Set ℕ) (i : grid1.Coords) (h1 : ¬ cond1 i = 1#1) (h2 : k1_cond2 i = 1#1) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole)
    (x : Vec F S1024x2048 .f32) (y : Vec F S2048x128 .f32) (z : Vec F S1024x128 .f32) (bb : Vec F S1x128 .f32) (acc : Vec F S1024x128 .f32) (rs : Vec F S1024x1 .f32) (K : PUnit → sProp 𝕄) :
    iprop(owns (c : Thread nD τ) arg2 fullShare x ∗ owns (c : Thread nD τ) arg3 fullShare y ∗ owns (c : Thread nD τ) arg4 fullShare z ∗ owns (c : Thread nD τ) arg5 fullShare bb
        ∗ (∃ d, owns (c : Thread nD τ) arg6 fullShare d) ∗ owns (c : Thread nD τ) arg7 fullShare acc ∗ owns (c : Thread nD τ) arg8 fullShare rs
        ∗ (iprop(owns (c : Thread nD τ) arg2 fullShare x ∗ owns (c : Thread nD τ) arg3 fullShare y ∗ owns (c : Thread nD τ) arg4 fullShare z ∗ owns (c : Thread nD τ) arg5 fullShare bb
            ∗ owns (c : Thread nD τ) arg6 fullShare (outNext (accNext x y acc) z (rsNext x rs) bb)
            ∗ owns (c : Thread nD τ) arg7 fullShare (accNext x y acc) ∗ owns (c : Thread nD τ) arg8 fullShare (rsNext x rs)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf2; subst hf3; subst hf4; subst hf5; subst hf7; subst hf8
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (coverO1 _ _)]
    simp only [View.canon_cons_unit_zero (S := S1024x128) hz2, View.canon_unit_zero (S := S1024x128) hz2, View.canon_cons_unit_zero (S := S1024x1) hz2, View.canon_unit_zero (S := S1024x1) hz2,
      View.readCov_unit_zero (S := S1024x128) _ hz2, View.readCov_unit_zero (S := S1024x1) _ hz2, View.readAt_eq_ld,
      View.ld_unit_zero (S := S1024x2048) hz2, View.ld_unit_zero (S := S2048x128) hz2, View.ld_unit_zero (S := S1024x128) hz2, View.ld_unit_zero (S := S1024x1) hz2, View.ld_unit_zero (S := S1x128) hz2,
      accNext, rsNext, outNext]
  isplitl [H7]
  · iexists _; isplitr
    swap; · iexact H7
    ipureintro
    sl_unfold_words
    rw [View.read_writes_eq_canon _ _ _ (coverO1 _ _)]
    simp only [View.canon_cons_unit_zero (S := S1024x128) hz2, View.canon_unit_zero (S := S1024x128) hz2, View.canon_cons_unit_zero (S := S1024x1) hz2, View.canon_unit_zero (S := S1024x1) hz2,
      View.readCov_unit_zero (S := S1024x128) _ hz2, View.readCov_unit_zero (S := S1024x1) _ hz2, View.readAt_eq_ld,
      View.ld_unit_zero (S := S1024x2048) hz2, View.ld_unit_zero (S := S2048x128) hz2, View.ld_unit_zero (S := S1024x128) hz2, View.ld_unit_zero (S := S1024x1) hz2, View.ld_unit_zero (S := S1x128) hz2,
      accNext, rsNext, outNext]
  iexists _; isplitr
  swap; · iexact H8
  ipureintro
  sl_unfold_words
  rw [View.read_writes_eq_canon _ _ _ (coverR1 _ _)]
  simp only [View.canon_cons_unit_zero (S := S1024x128) hz2, View.canon_unit_zero (S := S1024x128) hz2, View.canon_cons_unit_zero (S := S1024x1) hz2, View.canon_unit_zero (S := S1024x1) hz2,
    View.readCov_unit_zero (S := S1024x128) _ hz2, View.readCov_unit_zero (S := S1024x1) _ hz2, View.readAt_eq_ld,
    View.ld_unit_zero (S := S1024x2048) hz2, View.ld_unit_zero (S := S2048x128) hz2, View.ld_unit_zero (S := S1024x128) hz2, View.ld_unit_zero (S := S1024x1) hz2, View.ld_unit_zero (S := S1x128) hz2,
    accNext, rsNext, outNext]

/-! ## The conditions and the output's idleness over the grid, in closed form -/

theorem N1 : cfg1.N = 32 := by decide
/-- The body resets the accumulators exactly at the first column block. -/
theorem hcond1 : ∀ t : Fin cfg1.N, (cond1 (grid1.coords t) = 1#1) ↔ t.val % 4 = 0 :=
  (by decide +kernel : ∀ t : Fin grid1.N, (cond1 (grid1.coords t) = 1#1) ↔ t.val % 4 = 0)
/-- It stores the output exactly at the last column block. -/
theorem hcond2 : ∀ t : Fin cfg1.N, (k1_cond2 (grid1.coords t) = 1#1) ↔ t.val % 4 = 3 :=
  (by decide +kernel : ∀ t : Fin grid1.N, (k1_cond2 (grid1.coords t) = 1#1) ↔ t.val % 4 = 3)
/-- The output window is idle exactly off the last column block. -/
theorem idle4 : ∀ t : Fin cfg1.N, cfg1.idle 4 (cfg1.grid.coords t) = !(decide (t.val % 4 = 3)) :=
  (by decide +kernel : ∀ t : Fin grid1.N, idle1 4 (grid1.coords t) = !(decide (t.val % 4 = 3)))

section Region1b

variable (V : (c : Dev nD) → (b : Ref sig .tc) → Buf (Elt F) ((c : Thread nD τ).loc b))

/-! ## The scratch buffers, point by point -/

/-- The accumulator and the row-sum scratch after the body at position `n`: at a first column block the tile added to
    zero, elsewhere added to what position `n - 1` left. -/
def scrAt (c : Dev nD) : (n : ℕ) → n < cfg1.N → Vec F S1024x128 .f32 × Vec F S1024x1 .f32
  | 0, hn => (accNext (iblk1 V c 0 ⟨0, hn⟩) (iblk1 V c 1 ⟨0, hn⟩) k1_pay1, rsNext (iblk1 V c 0 ⟨0, hn⟩) k1_pay2)
  | n + 1, hn =>
    if (n + 1) % 4 = 0 then
      (accNext (iblk1 V c 0 ⟨n + 1, hn⟩) (iblk1 V c 1 ⟨n + 1, hn⟩) k1_pay1, rsNext (iblk1 V c 0 ⟨n + 1, hn⟩) k1_pay2)
    else
      (accNext (iblk1 V c 0 ⟨n + 1, hn⟩) (iblk1 V c 1 ⟨n + 1, hn⟩) (scrAt c n (Nat.lt_of_succ_lt hn)).1,
        rsNext (iblk1 V c 0 ⟨n + 1, hn⟩) (scrAt c n (Nat.lt_of_succ_lt hn)).2)

/-- At a first column block: the tile added to zero. -/
theorem scrAt_reset (c : Dev nD) (t : Fin cfg1.N) (h0 : t.val % 4 = 0) :
    scrAt V c t.val t.isLt = (accNext (iblk1 V c 0 t) (iblk1 V c 1 t) k1_pay1, rsNext (iblk1 V c 0 t) k1_pay2) := by
  obtain ⟨n, hn⟩ := t
  cases n with
  | zero => rfl
  | succ n => exact if_pos h0

/-- Elsewhere: the tile added to what the point before left. -/
theorem scrAt_add (c : Dev nD) (t : Fin cfg1.N) (h0 : ¬ t.val % 4 = 0) :
    scrAt V c t.val t.isLt = (accNext (iblk1 V c 0 t) (iblk1 V c 1 t) (scrAt V c (t.val - 1) (Nat.lt_of_le_of_lt (Nat.sub_le _ _) t.isLt)).1,
      rsNext (iblk1 V c 0 t) (scrAt V c (t.val - 1) (Nat.lt_of_le_of_lt (Nat.sub_le _ _) t.isLt)).2) := by
  obtain ⟨n, hn⟩ := t
  cases n with
  | zero => exact absurd (Nat.zero_mod _) h0
  | succ n => exact if_neg h0

/-! ## The invariant -/

/-- The two scratch operands as memrefs. -/
abbrev scM0 : Memref sig .tc .vmem S1024x128 .f32 := Memref.whole cc1_scratch0
abbrev scM1 : Memref sig .tc .vmem S1024x1 .f32 := Memref.whole cc1_scratch1

/-- A statement about the two scratch buffers, beside the first region's staging buffers, which this region never
    touches: each of those whole at some contents. -/
def withOthers1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P)

/-- The class invariant with the two scratch operands as memrefs owned at some contents. -/
theorem PhiA1_eq (c : Dev nD) :
    (Pipeline.ΦA spec1 c : sProp 𝕄)
      = iprop(withOthers1 (F := F) c iprop((∃ d, owns (c : Thread nD τ) scM0 fullShare d) ∗ (∃ d, owns (c : Thread nD τ) scM1 fullShare d)) ∗ (∃ r, prngReg c r)) := by
  unfold Pipeline.ΦA withOthers1; rw [scopedRest1_eq]; simp only [scM0, scM1, owns_whole]
  rfl

/-- The region invariant before position `n`: before the first point the class's (every scratch at anything); afterwards
    the two scratch buffers at what the point before left in them. -/
def PhiS1 (c : Dev nD) : (n : ℕ) → n ≤ cfg1.N → sProp 𝕄
  | 0, _ => Pipeline.ΦA spec1 c
  | n + 1, hn => iprop(withOthers1 (F := F) c iprop(owns (c : Thread nD τ) scM0 fullShare (scrAt V c n hn).1 ∗ owns (c : Thread nD τ) scM1 fullShare (scrAt V c n hn).2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(withOthers1 (F := F) c iprop(owns (c : Thread nD τ) scM0 fullShare (scrAt V c n hn).1 ∗ owns (c : Thread nD τ) scM1 fullShare (scrAt V c n hn).2) ∗ (∃ r, prngReg c r)) := rfl
theorem PhiS1_pos (c : Dev nD) (n : ℕ) (h : n ≤ cfg1.N) (hz : n ≠ 0) :
    PhiS1 V c n h = iprop(withOthers1 (F := F) c iprop(owns (c : Thread nD τ) scM0 fullShare (scrAt V c (n - 1) (by omega)).1 ∗ owns (c : Thread nD τ) scM1 fullShare (scrAt V c (n - 1) (by omega)).2) ∗ (∃ r, prngReg c r)) := by
  cases n with
  | zero => exact absurd rfl hz
  | succ n => rfl

/-! ## The proof data -/

/-- The proof data of the second region on core `c`: the arrays as the region finds them; after the body each input's
    buffer at its block, the output's at the scaled aggregate of the point's scratch contents (read only where the
    output is stored, at the last column blocks); the invariant `PhiS1`; nothing owed; the two windows onto the
    feature product hold its array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outNext (scrAt V c t.val t.isLt).1 (iblk1 V c 2 t) (scrAt V c t.val t.isLt).2 (iblk1 V c 3 t)
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = outNext (scrAt V c t.val t.isLt).1 (iblk1 V c 2 t) (scrAt V c t.val t.isLt).2 (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region1b

end Cert.Kernel.Hand

end
-- ==== Proof.KRegion1Body.lean ====
/-
  The second region's body obligation.

  At every point the body is handed the invariant, the four input windows' buffers at their blocks and the output's
  buffer at whatever it holds, and must hand back the invariant of the next point, the inputs as they were, and the
  output's buffer: untouched off the last column blocks, at the scaled aggregate on them.  By the point's column block
  it is one of the body's three cases, run on the point's blocks and on the scratch contents the invariant names
  (anything at a first column block, where the body overwrites them).
-/
import proofs.«131101_j59588376264936_1_alg».proof.Proof.Gen.Kernel.Launch
import proofs.«131101_j59588376264936_1_alg».proof.Proof.Gen.Kernel.Skeleton
import proofs.«131101_j59588376264936_1_alg».proof.Proof.Gen.Kernel.Points
import proofs.«131101_j59588376264936_1_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1Body

variable (V : (c : Dev nD) → (b : Ref sig .tc) → Buf (Elt F) ((c : Thread nD τ).loc b))

/-- A weaker statement about the scratch buffers beside the same other buffers. -/
theorem withOthers1_mono (c : Dev nD) {P Q : sProp 𝕄} (h : P ⊢ Q) : withOthers1 (F := F) c P ⊢ withOthers1 (F := F) c Q := by
  unfold withOthers1
  exact sep_mono .rfl (sep_mono .rfl (sep_mono .rfl (sep_mono .rfl (sep_mono .rfl h))))

/-- Before any point the invariant gives the scratch buffers at SOME contents (named ones forgotten). -/
theorem PhiS1_any (c : Dev nD) (n : ℕ) (h : n ≤ cfg1.N) :
    PhiS1 V c n h ⊢ iprop(withOthers1 (F := F) c iprop((∃ d, owns (c : Thread nD τ) scM0 fullShare d) ∗ (∃ d, owns (c : Thread nD τ) scM1 fullShare d)) ∗ (∃ r, prngReg c r)) := by
  by_cases hz : n = 0
  · rw [PhiS1_zero V c n h hz, PhiA1_eq]
  · rw [PhiS1_pos V c n h hz]
    refine sep_mono (withOthers1_mono c ?_) .rfl
    iintro ⟨H0, H1⟩
    isplitl [H0]; · iexists _; iexact H0
    iexists _; iexact H1

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- what it returns off the last column blocks (the output's buffer as it was found), -/
def bodyPostIdle1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (∃ d, owns (c : Thread nD τ) (st1_4 t) fullShare ((dat1 V c).before 4 t d)))

/-- and on them (the output stored). -/
def bodyPostLast1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- A first column block: the accumulators are overwritten, whatever they held. -/
theorem sound_body1_R (c : Dev nD) (t : Fin cfg1.N) (h0 : t.val % 4 = 0) :
    bodyPre1 V c t ⊢ wp frame (wpE (defs₀ (F := F)) Variants.none c none) Set.univ (bodyAt1 t) (fun _ => bodyPostIdle1 V c t) := by
  unfold bodyPre1 bodyPostIdle1 bodyAt1
  simp only [before1_0, before1_1, before1_2, before1_3]
  rw [PhiS1_castSucc, show (dat1 V c).Φ t.succ = PhiS1 V c (t.val + 1) t.isLt from rfl, PhiS1_succ,
    show (dat1 V c).owesAt () t.succ = (dat1 V c).owesAt () t.castSucc from rfl,
    after1_0, after1_1, after1_2, after1_3, scrAt_reset V c t h0]
  dsimp only
  have hΦ := PhiS1_any V c t.val (Nat.le_of_lt t.isLt)
  unfold withOthers1 at hΦ
  iintro ⟨HΦ, Ho, ⟨%d0, H0⟩, ⟨%d1, H1⟩, ⟨%d2, H2⟩, ⟨%d3, H3⟩, H4⟩
  ihave HΦ' := hΦ $$ HΦ
  icases HΦ' with ⟨⟨HA, HB, HC, HD, HE, HS0, HS1⟩, Hg⟩
  iapply (sound_kernel1_R c Set.univ (grid1.coords t) ((hcond1 t).mpr h0) (fun h => by have := (hcond2 t).mp h; omega) _ _ _ _ _ _ _ _ _ _ _ _ _ _ (iblk1 V c 0 t) (iblk1 V c 1 t) _)
  isplitl [H0]; · iexact H0
  isplitl [H1]; · iexact H1
  isplitl [HS0]; · iexact HS0
  isplitl [HS1]; · iexact HS1
  iintro ⟨H0, H1, HS0, HS1⟩
  isplitl [HA HB HC HD HE HS0 HS1 Hg]
  · isplitr [Hg]
    · unfold withOthers1
      isplitl [HA]; · iexact HA
      isplitl [HB]; · iexact HB
      isplitl [HC]; · iexact HC
      isplitl [HD]; · iexact HD
      isplitl [HE]; · iexact HE
      isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- A middle column block: the tile is added to what the point before left. -/
theorem sound_body1_M (c : Dev nD) (t : Fin cfg1.N) (h0 : ¬ t.val % 4 = 0) (h3 : ¬ t.val % 4 = 3) :
    bodyPre1 V c t ⊢ wp frame (wpE (defs₀ (F := F)) Variants.none c none) Set.univ (bodyAt1 t) (fun _ => bodyPostIdle1 V c t) := by
  unfold bodyPre1 bodyPostIdle1 bodyAt1
  simp only [before1_0, before1_1, before1_2, before1_3]
  rw [PhiS1_castSucc, show (dat1 V c).Φ t.succ = PhiS1 V c (t.val + 1) t.isLt from rfl, PhiS1_succ,
    show (dat1 V c).owesAt () t.succ = (dat1 V c).owesAt () t.castSucc from rfl,
    after1_0, after1_1, after1_2, after1_3, scrAt_add V c t h0,
    PhiS1_pos V c t.val (Nat.le_of_lt t.isLt) (fun hz => h0 (by rw [hz]))]
  dsimp only
  unfold withOthers1
  iintro ⟨⟨⟨HA, HB, HC, HD, HE, HS0, HS1⟩, Hg⟩, Ho, ⟨%d0, H0⟩, ⟨%d1, H1⟩, ⟨%d2, H2⟩, ⟨%d3, H3⟩, H4⟩
  iapply (sound_kernel1_M c Set.univ (grid1.coords t) (fun h => h0 ((hcond1 t).mp h)) (fun h => h3 ((hcond2 t).mp h)) _ _ _ _ _ _ _ _ _ _ _ _ _ _ (iblk1 V c 0 t) (iblk1 V c 1 t)
    (scrAt V c (t.val - 1) (Nat.lt_of_le_of_lt (Nat.sub_le _ _) t.isLt)).1 (scrAt V c (t.val - 1) (Nat.lt_of_le_of_lt (Nat.sub_le _ _) t.isLt)).2 _)
  isplitl [H0]; · iexact H0
  isplitl [H1]; · iexact H1
  isplitl [HS0]; · iexact HS0
  isplitl [HS1]; · iexact HS1
  iintro ⟨H0, H1, HS0, HS1⟩
  isplitl [HA HB HC HD HE HS0 HS1 Hg]
  · isplitr [Hg]
    · isplitl [HA]; · iexact HA
      isplitl [HB]; · iexact HB
      isplitl [HC]; · iexact HC
      isplitl [HD]; · iexact HD
      isplitl [HE]; · iexact HE
      isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- A last column block: the tile is added, then the output block is stored from the two accumulators, the row block's
    own features and the bias. -/
theorem sound_body1_L (c : Dev nD) (t : Fin cfg1.N) (h3 : t.val % 4 = 3) :
    bodyPre1 V c t ⊢ wp frame (wpE (defs₀ (F := F)) Variants.none c none) Set.univ (bodyAt1 t) (fun _ => bodyPostLast1 V c t) := by
  have h0 : ¬ t.val % 4 = 0 := by omega
  unfold bodyPre1 bodyPostLast1 bodyAt1
  simp only [before1_0, before1_1, before1_2, before1_3]
  rw [PhiS1_castSucc, show (dat1 V c).Φ t.succ = PhiS1 V c (t.val + 1) t.isLt from rfl, PhiS1_succ,
    show (dat1 V c).owesAt () t.succ = (dat1 V c).owesAt () t.castSucc from rfl,
    after1_0, after1_1, after1_2, after1_3, after1_4, scrAt_add V c t h0,
    PhiS1_pos V c t.val (Nat.le_of_lt t.isLt) (fun hz => h0 (by rw [hz]))]
  dsimp only
  unfold withOthers1
  iintro ⟨⟨⟨HA, HB, HC, HD, HE, HS0, HS1⟩, Hg⟩, Ho, ⟨%d0, H0⟩, ⟨%d1, H1⟩, ⟨%d2, H2⟩, ⟨%d3, H3⟩, ⟨%d4, H4⟩⟩
  iapply (sound_kernel1_L c Set.univ (grid1.coords t) (fun h => h0 ((hcond1 t).mp h)) ((hcond2 t).mpr h3) _ _ _ _ _ _ _ _ _ _ _ _ _ _ (iblk1 V c 0 t) (iblk1 V c 1 t) (iblk1 V c 2 t) (iblk1 V c 3 t)
    (scrAt V c (t.val - 1) (Nat.lt_of_le_of_lt (Nat.sub_le _ _) t.isLt)).1 (scrAt V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HA HB HC HD HE HS0 HS1 Hg]
  · isplitr [Hg]
    · isplitl [HA]; · iexact HA
      isplitl [HB]; · iexact HB
      isplitl [HC]; · iexact HC
      isplitl [HD]; · iexact HD
      isplitl [HE]; · iexact HE
      isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- The library's body obligation, at every point: by the point's column block. -/
theorem body_obligation1 (c : Dev nD) : BodyObligation (dat1 (F := F) V c) (defs₀ (F := F)) Variants.none () Set.univ := fun t => by
  rw [bigSep_W1, bigSep_W1]
  by_cases h3 : t.val % 4 = 3
  · have hi : idle1 4 (grid1.coords t) = false := (idle4 t).trans (by simp [h3])
    simp only [hi]
    exact sound_body1_L V c t h3
  · have hi : idle1 4 (grid1.coords t) = true := (idle4 t).trans (by simp [h3])
    have hf : (win1 4).flush t = false := Bool.eq_false_iff.mpr fun hfl => h3 ((flush1_4 t).mp hfl)
    simp only [hi, hf]
    by_cases h0 : t.val % 4 = 0
    · exact sound_body1_R V c t h0
    · exact sound_body1_M V c t h0 h3

end Region1Body

end Cert.Kernel.Hand

end
-- ==== Proof.KRun.lean ====
/-
  The run of @main: the first region, one host operation (the bias recast as a row), the second region.

  Between two items the core's unscoped buffers are whole at contents named by a fold from the launch memory: after
  the first region the feature product's array at what the 8 write-backs leave, after the host operation the bias row,
  after the second region the output array at what its 8 write-backs leave; nothing else changes, so every argument
  array ends as launched.  The second region reads the feature product through TWO windows (a column block and a row
  block of the same array): it holds that array's buffer at the two halves of the full share, split at entry and
  joined at exit.
-/
import proofs.«131101_j59588376264936_1_alg».proof.Proof.Gen.Kernel.Launch
import proofs.«131101_j59588376264936_1_alg».proof.Proof.Gen.Kernel.Skeleton
import proofs.«131101_j59588376264936_1_alg».proof.Proof.Gen.Kernel.Points
import proofs.«131101_j59588376264936_1_alg».proof.Proof.KRegion0
import proofs.«131101_j59588376264936_1_alg».proof.Proof.KRegion1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)

section Run

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references (the first region's entry contents). -/
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operation (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit: the output array at what the pipeline leaves, every other buffer as entered (the
    region's other arrays are inputs). -/
def W3 (c : Dev nD) : Valuation τ sig (Elt F) :=
  Function.update (W2 m ρ c) (Proc.devRef .tc main_v2) ((dat1 (V2 m ρ) c).arrAt 4 cfg1.N)
abbrev V3 : (c : Dev nD) → (b : Ref sig .tc) → Buf (Elt F) ((c : Thread nD τ).loc b) := fun c b => W3 m ρ c b
theorem W3_out (c : Dev nD) : W3 m ρ c (Proc.devRef .tc main_v2) = (dat1 (V2 m ρ) c).arrAt 4 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..

end Run

/-! ## The second region's arrays, one by one -/

section Shared

variable (V : (c : Dev nD) → (b : Ref sig .tc) → Buf (Elt F) ((c : Thread nD τ).loc b))

/-- The four distinct buffers behind the second region's five windows. -/
theorem arrBufs1_eq (c : Dev nD) (U' : (b : Ref sig .tc) → Buf (Elt F) ((c : Thread nD τ).loc b)) :
    (Pipeline.arrBufs (Ix := Unit) (Name := ℕ) (U := UR sig nD τ) (Lvl := ℕ) spec1 c U' : sProp 𝕄)
      = iprop((((c : Thread nD τ).loc main_arg1) ↦{fullShare} U' main_arg1) ∗ (((c : Thread nD τ).loc main_v0) ↦{fullShare} U' main_v0)
          ∗ (((c : Thread nD τ).loc main_v1) ↦{fullShare} U' main_v1) ∗ (((c : Thread nD τ).loc main_v2) ↦{fullShare} U' main_v2)) := by
  unfold Pipeline.arrBufs
  exact bigSep_eq_bigSepL_of_eq [main_arg1, main_v0, main_v1, main_v2] (by decide) (by decide) _

/-- The five windows' arrays at their shares: the feature product's buffer at the two halves. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_arg1) ↦{fullShare} Fn 0) ∗ (((c : Thread nD τ).loc main_v0) ↦{fullShare.left} Fn 1)
          ∗ (((c : Thread nD τ).loc main_v0) ↦{fullShare.right} Fn 2) ∗ (((c : Thread nD τ).loc main_v1) ↦{fullShare} Fn 3) ∗ (((c : Thread nD τ).loc main_v2) ↦{fullShare} Fn 4)) := by
  unfold Dat.arrays
  rw [bigSep_W1]
  rw [(arr_whole1 0).set_eq_univ, (arr_whole1 1).set_eq_univ, (arr_whole1 3).set_eq_univ, (arr_whole1 4).set_eq_univ]
  rfl

/-- ENTRY of the second region: the core's unscoped buffers at `V` are its five windows' arrays at the entry contents,
    the feature product's buffer split between its two windows, and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.PerCore.unscopedBufs_split₀ (fun _ : Dev nD => cfgs) (1 : Fin 2) c winFacts₀1.arr_unscoped (V c)]
  change iprop(Pipeline.arrBufs (Ix := Unit) (Name := ℕ) (U := UR sig nD τ) (Lvl := ℕ) spec1 c (V c) ∗ Pipeline.unscopedRest (Ix := Unit) (Name := ℕ) (U := UR sig nD τ) (Lvl := ℕ) spec1 c (V c)) ⊢ _
  rw [arrBufs1_eq, arrays1_eq]
  refine sep_mono ?_ .rfl
  simp only [show ∀ w, (dat1 V c).arrAt w 0 = (dat1 V c).A w from fun _ => rfl, A_eq1]
  iintro ⟨H0, H1, H3, H4⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H3]; · iexact H3
  iexact H4

/-- EXIT of the second region: its arrays after the write-backs (the four inputs' as entered, the halves joined) and
    the rest are the core's unscoped buffers at any contents `V'` that have the output array at what the pipeline leaves
    and agree with `V` elsewhere. -/
theorem exit1 (c : Dev nD) (V' : (b : Ref sig .tc) → Buf (Elt F) ((c : Thread nD τ).loc b))
    (hout : V' main_v2 = (dat1 V c).arrAt 4 cfg1.N) (hne : ∀ b, b ≠ main_v2 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.PerCore.unscopedBufs_split₀ (fun _ : Dev nD => cfgs) (1 : Fin 2) c winFacts₀1.arr_unscoped V']
  change _ ⊢ iprop(Pipeline.arrBufs (Ix := Unit) (Name := ℕ) (U := UR sig nD τ) (Lvl := ℕ) spec1 c V' ∗ Pipeline.unscopedRest (Ix := Unit) (Name := ℕ) (U := UR sig nD τ) (Lvl := ℕ) spec1 c V')
  rw [arrBufs1_eq, arrays1_eq, unscopedRest1_eq, unscopedRest1_eq]
  rw [hne main_arg0 (by decide), hne main_arg2 (by decide), hne main_arg3 (by decide), hne main_arg1 (by decide), hne main_v0 (by decide),
    hne main_v1 (by decide), hout]
  simp only [(dat1 V c).arrAt_in 0 rfl, (dat1 V c).arrAt_in 1 rfl, (dat1 V c).arrAt_in 2 rfl, (dat1 V c).arrAt_in 3 rfl, A_eq1]
  iintro ⟨⟨H0, H1a, H1b, H3, H4⟩, Hrest⟩
  isplitr [Hrest]
  swap; · iexact Hrest
  isplitl [H0]; · iexact H0
  isplitl [H1a H1b]
  · iapply (pointsTo_share (PosShare.mem_left_op_right fullShare)).2
    isplitl [H1a]; · iexact H1a
    iexact H1b
  isplitl [H3]; · iexact H3
  iexact H4

end Shared

/-! ## The proof data family, the thread state, the regions as segments -/

section Launch

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor
/-- The host operation as a segment, from the first region's exit contents. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The first region over the thread state: entered from every unscoped buffer at launch, left with the feature product's
    array at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from the contents after the host operation, left with the output
    array at what its write-backs leave.  The invariant before its first point is the class's, after its last point it
    gives the class's back (the scratch buffers' named contents forgotten). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := PhiS1_any (V2 m ρ) c cfg1.N (Nat.le_refl _)
    rw [← PhiA1_eq] at h
    rw [show (pdats m ρ 1 c).Φ (Fin.last _) = PhiS1 (V2 m ρ) c cfg1.N (Nat.le_refl _) from rfl]
    refine h.trans ?_
    unfold Pipeline.ΦA
    iintro ⟨Hr, Hp⟩
    isplitl [Hp]; · iexact Hp
    isplitr; · iempintro
    iexact Hr
  hexit c := by
    have hjoin := exit1 (V2 m ρ) c (V3 m ρ c) (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's three items in order. -/
abbrev segs : List (Pipeline.Seg (pcfgs (F := F)) adm (pdats m ρ) () defs₀ 𝒱₀ L lv) :=
  [ .region (reg0 m ρ), .host (hseg1 m ρ), .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Launch

end Cert.Kernel.Hand

end
-- ==== Proof.KRunFacts.lean ====
/-
  The frame, read off the run.

  No item of @main writes an argument array: the first region reads the features and the weight through input windows
  and bypasses the adjacency and the bias, the host operation writes only the bias row, the second region writes only
  the output array.  So the last boundary's contents at each argument walk back through the fold to the launch memory,
  and the run's post gives the frame claim.
-/
import proofs.«131101_j59588376264936_1_alg».proof.Proof.Gen.Kernel.Launch
import proofs.«131101_j59588376264936_1_alg».proof.Proof.Gen.Kernel.Skeleton
import proofs.«131101_j59588376264936_1_alg».proof.Proof.Gen.Kernel.Points
import proofs.«131101_j59588376264936_1_alg».proof.Proof.KRun
import proofs.«131101_j59588376264936_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Facts

variable (m : (ℓ : Loc nD τ sig) → Buf (Elt F) ℓ) (ρ : Dev nD → PrngReg)

/-- The host operation writes the bias row only. -/
theorem W2_of (c : Dev nD) (r : Ref sig .tc) (h : r ∉ hostOps1_W) : W2 m ρ c r = W1 m ρ c r :=
  StableHlo.after_of_writes_sub hostOps1 _ hostOps1_writes h

theorem W3_main_arg0 (c : Dev nD) : W3 m ρ c (Proc.devRef .tc main_arg0) = m ((c : Thread nD τ).loc main_arg0) :=
  (W3_of_ne m ρ c main_arg0 (by decide)).trans <| (W2_of m ρ c main_arg0 (by decide)).trans <| (W1_arr m ρ c 0).trans <|
    ((dat0 (V0 m ρ) c).arrAt_in 0 rfl _).trans (A_eq0 (V0 m ρ) c 0)
theorem W3_main_arg1 (c : Dev nD) : W3 m ρ c (Proc.devRef .tc main_arg1) = m ((c : Thread nD τ).loc main_arg1) :=
  (W3_of_ne m ρ c main_arg1 (by decide)).trans <| (W2_of m ρ c main_arg1 (by decide)).trans <| W1_of_ne m ρ c main_arg1 (by decide)
theorem W3_main_arg2 (c : Dev nD) : W3 m ρ c (Proc.devRef .tc main_arg2) = m ((c : Thread nD τ).loc main_arg2) :=
  (W3_of_ne m ρ c main_arg2 (by decide)).trans <| (W2_of m ρ c main_arg2 (by decide)).trans <| (W1_arr m ρ c 1).trans <|
    ((dat0 (V0 m ρ) c).arrAt_in 1 rfl _).trans (A_eq0 (V0 m ρ) c 1)
theorem W3_main_arg3 (c : Dev nD) : W3 m ρ c (Proc.devRef .tc main_arg3) = m ((c : Thread nD τ).loc main_arg3) :=
  (W3_of_ne m ρ c main_arg3 (by decide)).trans <| (W2_of m ρ c main_arg3 (by decide)).trans <| W1_of_ne m ρ c main_arg3 (by decide)

/-- THE FRAME, at any float instance: every weakly fair execution of @main terminates, nothing faulting, with the four
    argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Facts

end Cert.Kernel.Hand

end
-- ==== Proof.Region0.lean ====
/-
  The first kernel region: the feature product, one block of 1024 rows per grid point.

  At each of its 8 points the body reads the point's 1024 × 256 block of the features and the whole 256 × 128 weight,
  and stores their matrix product (the two operands narrowed to the short float format first, the accumulator zero)
  over the whole 1024 × 128 output block.  It keeps nothing from one point to the next, so what the pipeline needs of it
  is one fact: from the two input buffers at their blocks and the output buffer at anything, the body runs to the
  inputs unchanged and the output at that product (`sound_kernel0`), the output written as one piece that covers
  the block.  Everything here is stated at a parameter `V`, the contents of the core's buffers when the region is
  entered, and for any float instance.
-/
import proofs.«131101_j59588376264936_1_alg».proof.Proof.Gen.KernelIdeal.Launch
import proofs.«131101_j59588376264936_1_alg».proof.Proof.Gen.KernelIdeal.Skeleton
import proofs.«131101_j59588376264936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point, fetched there or kept from the first. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S1024x256 := Rect.unit (s := S1024x256) ![0, 0] S1024x256.size inb_S1024x256_S1024x256_0_0
abbrev rW0 : Rect S256x128 := Rect.unit (s := S256x128) ![0, 0] S256x128.size inb_S256x128_S256x128_0_0
abbrev rO0 : Rect S1024x128 := Rect.unit (s := S1024x128) ![0, 0] S1024x128.size inb_S1024x128_S1024x128_0_0

/-- The output buffer after the body: the product of the two loaded blocks, stored as one piece. -/
def out0_2 (x0 : Vec F S1024x256 .f32) (x1 : Vec F S256x128 .f32) : Vec F S1024x128 .f32 :=
  View.canon [⟨rO0, k0_pay1 (View.ld x0 rX0) (View.ld x1 rW0)⟩]

/-- The one store covers the buffer. -/
theorem cover0_2 (p0 : Vec F S1024x128 .f32) (y : S1024x128.Idx) :
    ∃ pc ∈ ([⟨rO0, p0⟩] : List (View.Piece (Elt F) S1024x128 .f32)), y ∈ pc.1.set :=
  View.cover_of_tiled [⟨rO0, p0⟩] S1024x128.size (by rfl) y

/-! ## The body's triple -/

set_option maxHeartbeats 1000000 in
/-- The body on whole staging memrefs: the inputs at `x0`, `x1` and the output at anything run to the inputs as they
    were and the output at `out0_2 x0 x1`. -/
theorem sound_kernel0 (c : Dev nD) (E : Set ℕ) (i : grid0.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the first region on core `c`: the arrays as the region finds them; after the body each input's
    buffer at its block and the output's at the product of the two input blocks; the invariant is the rest of the core's
    scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Region1.lean ====
/-
  The second kernel region: aggregation over the adjacency, 8 row blocks by 4 column blocks.

  Point `t` of the 32 is row block `t / 4`, column block `t % 4`.  Two scratch buffers live across the four points of
  a row block: a 1024 × 128 accumulator of the partial products of the adjacency's tile with the matching 2048 rows
  of the feature product, and a 1024 × 1 accumulator of the tile's row sums.  At the first column block both are set
  to zero before the tile is added; at the last, after the tile is added, the body stores the output block: the
  accumulator plus the row block's own features, scaled by the inverse of (row sum + 1), plus the bias.  At the other
  points the output's buffer is not touched.

  So the body has three cases by `t % 4` (0: reset and add; 1, 2: add; 3: add and store the output), each run once
  symbolically on whole buffers (`sound_kernel1_R`, `_M`, `_L`); what the two scratch buffers hold after point `n` is
  a recursion on `n` (`scrAt`), and the region's invariant carries them at those contents from the second point on.
  Everything is stated at a parameter `V`, the contents of the core's buffers at entry, for any float instance.
-/
import proofs.«131101_j59588376264936_1_alg».proof.Proof.Gen.KernelIdeal.Launch
import proofs.«131101_j59588376264936_1_alg».proof.Proof.Gen.KernelIdeal.Skeleton
import proofs.«131101_j59588376264936_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's staging buffer holds the point's tile. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column block of the feature product is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row block of the feature product is in its staging buffer at every point, fetched there or kept since the row block's first point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias is in its staging buffer at every point, fetched at the first. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's accesses (each buffer whole), its two conditions, and its three cases -/

abbrev rA1 : Rect S1024x2048 := Rect.unit (s := S1024x2048) ![0, 0] S1024x2048.size inb_S1024x2048_S1024x2048_0_0
abbrev rS1 : Rect S2048x128 := Rect.unit (s := S2048x128) ![0, 0] S2048x128.size inb_S2048x128_S2048x128_0_0
abbrev rO1 : Rect S1024x128 := Rect.unit (s := S1024x128) ![0, 0] S1024x128.size inb_S1024x128_S1024x128_0_0
abbrev rR1 : Rect S1024x1 := Rect.unit (s := S1024x1) ![0, 0] S1024x1.size inb_S1024x1_S1024x1_0_0
abbrev rB1 : Rect S1x128 := Rect.unit (s := S1x128) ![0, 0] S1x128.size inb_S1x128_S1x128_0_0

theorem hz2 : (![0, 0] : Fin 2 → ℕ) = fun _ => 0 := by funext a; fin_cases a <;> rfl

/-- the reset condition of the body at grid coordinates i -/
abbrev cond1 (i : grid1.Coords) : BitVec 1 := Scalar.cmpi .ne (Scalar.extui (Scalar.cmpi .eq (BitVec.ofNat 32 (i 1).val) 0#32) : BitVec 32) 0#32

def accNext (x : Vec F S1024x2048 .f32) (y : Vec F S2048x128 .f32) (acc : Vec F S1024x128 .f32) : Vec F S1024x128 .f32 := k1_pay4 x acc y
def rsNext (x : Vec F S1024x2048 .f32) (rs : Vec F S1024x1 .f32) : Vec F S1024x1 .f32 := k1_pay3 x rs
def outNext (accN : Vec F S1024x128 .f32) (z : Vec F S1024x128 .f32) (rsN : Vec F S1024x1 .f32) (bb : Vec F S1x128 .f32) : Vec F S1024x128 .f32 := k1_pay5 accN z rsN bb

theorem coverO1 (p0 : Vec F S1024x128 .f32) (L : List (View.Piece (Elt F) S1024x128 .f32)) (y : S1024x128.Idx) :
    ∃ pc ∈ ((⟨rO1, p0⟩ : View.Piece (Elt F) S1024x128 .f32) :: L), y ∈ pc.1.set := by
  obtain ⟨pc, hm, hy⟩ := View.cover_of_tiled [(⟨rO1, p0⟩ : View.Piece (Elt F) S1024x128 .f32)] S1024x128.size (by rfl) y
  rw [List.mem_singleton] at hm; subst hm
  exact ⟨_, List.mem_cons_self .., hy⟩
theorem coverR1 (p0 : Vec F S1024x1 .f32) (L : List (View.Piece (Elt F) S1024x1 .f32)) (y : S1024x1.Idx) :
    ∃ pc ∈ ((⟨rR1, p0⟩ : View.Piece (Elt F) S1024x1 .f32) :: L), y ∈ pc.1.set := by
  obtain ⟨pc, hm, hy⟩ := View.cover_of_tiled [(⟨rR1, p0⟩ : View.Piece (Elt F) S1024x1 .f32)] S1024x1.size (by rfl) y
  rw [List.mem_singleton] at hm; subst hm
  exact ⟨_, List.mem_cons_self .., hy⟩

set_option maxHeartbeats 1000000 in
theorem sound_kernel1_M (c : Dev nD) (E : Set ℕ) (i : grid1.Coords) (h1 : ¬ cond1 i = 1#1) (h2 : ¬ k1_cond2 i = 1#1) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole)
    (x : Vec F S1024x2048 .f32) (y : Vec F S2048x128 .f32) (acc : Vec F S1024x128 .f32) (rs : Vec F S1024x1 .f32) (K : PUnit → sProp 𝕄) :
    iprop(owns (c : Thread nD τ) arg2 fullShare x ∗ owns (c : Thread nD τ) arg3 fullShare y ∗ owns (c : Thread nD τ) arg7 fullShare acc ∗ owns (c : Thread nD τ) arg8 fullShare rs
        ∗ (iprop(owns (c : Thread nD τ) arg2 fullShare x ∗ owns (c : Thread nD τ) arg3 fullShare y
            ∗ owns (c : Thread nD τ) arg7 fullShare (accNext x y acc) ∗ owns (c : Thread nD τ) arg8 fullShare (rsNext x rs)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f2, %hf2, H2⟩, ⟨%f3, %hf3, H3⟩, ⟨%f7, %hf7, H7⟩, ⟨%f8, %hf8, H8⟩, Hk⟩
  subst hf2; subst hf3; subst hf7; subst hf8
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H7]
  · iexists _; isplitr
    swap; · iexact H7
    ipureintro
    sl_unfold_words
    rw [View.read_writes_eq_canon _ _ _ (coverO1 _ _)]
    simp only [View.canon_cons_unit_zero (S := S1024x128) hz2, View.canon_unit_zero (S := S1024x128) hz2, View.canon_cons_unit_zero (S := S1024x1) hz2, View.canon_unit_zero (S := S1024x1) hz2,
      View.readCov_unit_zero (S := S1024x128) _ hz2, View.readCov_unit_zero (S := S1024x1) _ hz2, View.readAt_eq_ld,
      View.ld_unit_zero (S := S1024x2048) hz2, View.ld_unit_zero (S := S2048x128) hz2, View.ld_unit_zero (S := S1024x128) hz2, View.ld_unit_zero (S := S1024x1) hz2, View.ld_unit_zero (S := S1x128) hz2,
      accNext, rsNext, outNext]
  iexists _; isplitr
  swap; · iexact H8
  ipureintro
  sl_unfold_words
  rw [View.read_writes_eq_canon _ _ _ (coverR1 _ _)]
  simp only [View.canon_cons_unit_zero (S := S1024x128) hz2, View.canon_unit_zero (S := S1024x128) hz2, View.canon_cons_unit_zero (S := S1024x1) hz2, View.canon_unit_zero (S := S1024x1) hz2,
    View.readCov_unit_zero (S := S1024x128) _ hz2, View.readCov_unit_zero (S := S1024x1) _ hz2, View.readAt_eq_ld,
    View.ld_unit_zero (S := S1024x2048) hz2, View.ld_unit_zero (S := S2048x128) hz2, View.ld_unit_zero (S := S1024x128) hz2, View.ld_unit_zero (S := S1024x1) hz2, View.ld_unit_zero (S := S1x128) hz2,
    accNext, rsNext, outNext]

set_option maxHeartbeats 1000000 in
theorem sound_kernel1_R (c : Dev nD) (E : Set ℕ) (i : grid1.Coords) (h1 : cond1 i = 1#1) (h2 : ¬ k1_cond2 i = 1#1) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole)
    (x : Vec F S1024x2048 .f32) (y : Vec F S2048x128 .f32) (K : PUnit → sProp 𝕄) :
    iprop(owns (c : Thread nD τ) arg2 fullShare x ∗ owns (c : Thread nD τ) arg3 fullShare y ∗ (∃ d, owns (c : Thread nD τ) arg7 fullShare d) ∗ (∃ d, owns (c : Thread nD τ) arg8 fullShare d)
        ∗ (iprop(owns (c : Thread nD τ) arg2 fullShare x ∗ owns (c : Thread nD τ) arg3 fullShare y
            ∗ owns (c : Thread nD τ) arg7 fullShare (accNext x y k1_pay1) ∗ owns (c : Thread nD τ) arg8 fullShare (rsNext x k1_pay2)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f2, %hf2, H2⟩, ⟨%f3, %hf3, H3⟩, ⟨%d7, %f7, -, H7⟩, ⟨%d8, %f8, -, H8⟩, Hk⟩
  subst hf2; subst hf3
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H7]
  · iexists _; isplitr
    swap; · iexact H7
    ipureintro
    sl_unfold_words
    rw [View.read_writes_eq_canon _ _ _ (coverO1 _ _)]
    simp only [View.canon_cons_unit_zero (S := S1024x128) hz2, View.canon_unit_zero (S := S1024x128) hz2, View.canon_cons_unit_zero (S := S1024x1) hz2, View.canon_unit_zero (S := S1024x1) hz2,
      View.readCov_unit_zero (S := S1024x128) _ hz2, View.readCov_unit_zero (S := S1024x1) _ hz2, View.readAt_eq_ld,
      View.ld_unit_zero (S := S1024x2048) hz2, View.ld_unit_zero (S := S2048x128) hz2, View.ld_unit_zero (S := S1024x128) hz2, View.ld_unit_zero (S := S1024x1) hz2, View.ld_unit_zero (S := S1x128) hz2,
      accNext, rsNext, outNext]
  iexists _; isplitr
  swap; · iexact H8
  ipureintro
  sl_unfold_words
  rw [View.read_writes_eq_canon _ _ _ (coverR1 _ _)]
  simp only [View.canon_cons_unit_zero (S := S1024x128) hz2, View.canon_unit_zero (S := S1024x128) hz2, View.canon_cons_unit_zero (S := S1024x1) hz2, View.canon_unit_zero (S := S1024x1) hz2,
    View.readCov_unit_zero (S := S1024x128) _ hz2, View.readCov_unit_zero (S := S1024x1) _ hz2, View.readAt_eq_ld,
    View.ld_unit_zero (S := S1024x2048) hz2, View.ld_unit_zero (S := S2048x128) hz2, View.ld_unit_zero (S := S1024x128) hz2, View.ld_unit_zero (S := S1024x1) hz2, View.ld_unit_zero (S := S1x128) hz2,
    accNext, rsNext, outNext]

set_option maxHeartbeats 1000000 in
theorem sound_kernel1_L (c : Dev nD) (E : Set ℕ) (i : grid1.Coords) (h1 : ¬ cond1 i = 1#1) (h2 : k1_cond2 i = 1#1) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole)
    (x : Vec F S1024x2048 .f32) (y : Vec F S2048x128 .f32) (z : Vec F S1024x128 .f32) (bb : Vec F S1x128 .f32) (acc : Vec F S1024x128 .f32) (rs : Vec F S1024x1 .f32) (K : PUnit → sProp 𝕄) :
    iprop(owns (c : Thread nD τ) arg2 fullShare x ∗ owns (c : Thread nD τ) arg3 fullShare y ∗ owns (c : Thread nD τ) arg4 fullShare z ∗ owns (c : Thread nD τ) arg5 fullShare bb
        ∗ (∃ d, owns (c : Thread nD τ) arg6 fullShare d) ∗ owns (c : Thread nD τ) arg7 fullShare acc ∗ owns (c : Thread nD τ) arg8 fullShare rs
        ∗ (iprop(owns (c : Thread nD τ) arg2 fullShare x ∗ owns (c : Thread nD τ) arg3 fullShare y ∗ owns (c : Thread nD τ) arg4 fullShare z ∗ owns (c : Thread nD τ) arg5 fullShare bb
            ∗ owns (c : Thread nD τ) arg6 fullShare (outNext (accNext x y acc) z (rsNext x rs) bb)
            ∗ owns (c : Thread nD τ) arg7 fullShare (accNext x y acc) ∗ owns (c : Thread nD τ) arg8 fullShare (rsNext x rs)) -∗ K ⟨⟩))
      ⊢ wp frame (wpE (defs₀ (F := F)) Variants.none c none) E (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf2; subst hf3; subst hf4; subst hf5; subst hf7; subst hf8
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (coverO1 _ _)]
    simp only [View.canon_cons_unit_zero (S := S1024x128) hz2, View.canon_unit_zero (S := S1024x128) hz2, View.canon_cons_unit_zero (S := S1024x1) hz2, View.canon_unit_zero (S := S1024x1) hz2,
      View.readCov_unit_zero (S := S1024x128) _ hz2, View.readCov_unit_zero (S := S1024x1) _ hz2, View.readAt_eq_ld,
      View.ld_unit_zero (S := S1024x2048) hz2, View.ld_unit_zero (S := S2048x128) hz2, View.ld_unit_zero (S := S1024x128) hz2, View.ld_unit_zero (S := S1024x1) hz2, View.ld_unit_zero (S := S1x128) hz2,
      accNext, rsNext, outNext]
  isplitl [H7]
  · iexists _; isplitr
    swap; · iexact H7
    ipureintro
    sl_unfold_words
    rw [View.read_writes_eq_canon _ _ _ (coverO1 _ _)]
    simp only [View.canon_cons_unit_zero (S := S1024x128) hz2, View.canon_unit_zero (S := S1024x128) hz2, View.canon_cons_unit_zero (S := S1024x1) hz2, View.canon_unit_zero (S := S1024x1) hz2,
      View.readCov_unit_zero (S := S1024x128) _ hz2, View.readCov_unit_zero (S := S1024x1) _ hz2, View.readAt_eq_ld,
      View.ld_unit_zero (S := S1024x2048) hz2, View.ld_unit_zero (S := S2048x128) hz2, View.ld_unit_zero (S := S1024x128) hz2, View.ld_unit_zero (S := S1024x1) hz2, View.ld_unit_zero (S := S1x128) hz2,
      accNext, rsNext, outNext]
  iexists _; isplitr
  swap; · iexact H8
  ipureintro
  sl_unfold_words
  rw [View.read_writes_eq_canon _ _ _ (coverR1 _ _)]
  simp only [View.canon_cons_unit_zero (S := S1024x128) hz2, View.canon_unit_zero (S := S1024x128) hz2, View.canon_cons_unit_zero (S := S1024x1) hz2, View.canon_unit_zero (S := S1024x1) hz2,
    View.readCov_unit_zero (S := S1024x128) _ hz2, View.readCov_unit_zero (S := S1024x1) _ hz2, View.readAt_eq_ld,
    View.ld_unit_zero (S := S1024x2048) hz2, View.ld_unit_zero (S := S2048x128) hz2, View.ld_unit_zero (S := S1024x128) hz2, View.ld_unit_zero (S := S1024x1) hz2, View.ld_unit_zero (S := S1x128) hz2,
    accNext, rsNext, outNext]

/-! ## The conditions and the output's idleness over the grid, in closed form -/

theorem N1 : cfg1.N = 32 := by decide
/-- The body resets the accumulators exactly at the first column block. -/
theorem hcond1 : ∀ t : Fin cfg1.N, (cond1 (grid1.coords t) = 1#1) ↔ t.val % 4 = 0 :=
  (by decide +kernel : ∀ t : Fin grid1.N, (cond1 (grid1.coords t) = 1#1) ↔ t.val % 4 = 0)
/-- It stores the output exactly at the last column block. -/
theorem hcond2 : ∀ t : Fin cfg1.N, (k1_cond2 (grid1.coords t) = 1#1) ↔ t.val % 4 = 3 :=
  (by decide +kernel : ∀ t : Fin grid1.N, (k1_cond2 (grid1.coords t) = 1#1) ↔ t.val % 4 = 3)
/-- The output window is idle exactly off the last column block. -/
theorem idle4 : ∀ t : Fin cfg1.N, cfg1.idle 4 (cfg1.grid.coords t) = !(decide (t.val % 4 = 3)) :=
  (by decide +kernel : ∀ t : Fin grid1.N, idle1 4 (grid1.coords t) = !(decide (t.val % 4 = 3)))

section Region1b

variable (V : (c : Dev nD) → (b : Ref sig .tc) → Buf (Elt F) ((c : Thread nD τ).loc b))

/-! ## The scratch buffers, point by point -/

/-- The accumulator and the row-sum scratch after the body at position `n`: at a first column block the tile added to
    zero, elsewhere added to what position `n - 1` left. -/
def scrAt (c : Dev nD) : (n : ℕ) → n < cfg1.N → Vec F S1024x128 .f32 × Vec F S1024x1 .f32
  | 0, hn => (accNext (iblk1 V c 0 ⟨0, hn⟩) (iblk1 V c 1 ⟨0, hn⟩) k1_pay1, rsNext (iblk1 V c 0 ⟨0, hn⟩) k1_pay2)
  | n + 1, hn =>
    if (n + 1) % 4 = 0 then
      (accNext (iblk1 V c 0 ⟨n + 1, hn⟩) (iblk1 V c 1 ⟨n + 1, hn⟩) k1_pay1, rsNext (iblk1 V c 0 ⟨n + 1, hn⟩) k1_pay2)
    else
      (accNext (iblk1 V c 0 ⟨n + 1, hn⟩) (iblk1 V c 1 ⟨n + 1, hn⟩) (scrAt c n (Nat.lt_of_succ_lt hn)).1,
        rsNext (iblk1 V c 0 ⟨n + 1, hn⟩) (scrAt c n (Nat.lt_of_succ_lt hn)).2)

/-- At a first column block: the tile added to zero. -/
theorem scrAt_reset (c : Dev nD) (t : Fin cfg1.N) (h0 : t.val % 4 = 0) :
    scrAt V c t.val t.isLt = (accNext (iblk1 V c 0 t) (iblk1 V c 1 t) k1_pay1, rsNext (iblk1 V c 0 t) k1_pay2) := by
  obtain ⟨n, hn⟩ := t
  cases n with
  | zero => rfl
  | succ n => exact if_pos h0

/-- Elsewhere: the tile added to what the point before left. -/
theorem scrAt_add (c : Dev nD) (t : Fin cfg1.N) (h0 : ¬ t.val % 4 = 0) :
    scrAt V c t.val t.isLt = (accNext (iblk1 V c 0 t) (iblk1 V c 1 t) (scrAt V c (t.val - 1) (Nat.lt_of_le_of_lt (Nat.sub_le _ _) t.isLt)).1,
      rsNext (iblk1 V c 0 t) (scrAt V c (t.val - 1) (Nat.lt_of_le_of_lt (Nat.sub_le _ _) t.isLt)).2) := by
  obtain ⟨n, hn⟩ := t
  cases n with
  | zero => exact absurd (Nat.zero_mod _) h0
  | succ n => exact if_neg h0

/-! ## The invariant -/

/-- The two scratch operands as memrefs. -/
abbrev scM0 : Memref sig .tc .vmem S1024x128 .f32 := Memref.whole cc1_scratch0
abbrev scM1 : Memref sig .tc .vmem S1024x1 .f32 := Memref.whole cc1_scratch1

/-- A statement about the two scratch buffers, beside the first region's staging buffers, which this region never
    touches: each of those whole at some contents. -/
def withOthers1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P)

/-- The class invariant with the two scratch operands as memrefs owned at some contents. -/
theorem PhiA1_eq (c : Dev nD) :
    (Pipeline.ΦA spec1 c : sProp 𝕄)
      = iprop(withOthers1 (F := F) c iprop((∃ d, owns (c : Thread nD τ) scM0 fullShare d) ∗ (∃ d, owns (c : Thread nD τ) scM1 fullShare d)) ∗ (∃ r, prngReg c r)) := by
  unfold Pipeline.ΦA withOthers1; rw [scopedRest1_eq]; simp only [scM0, scM1, owns_whole]
  rfl

/-- The region invariant before position `n`: before the first point the class's (every scratch at anything); afterwards
    the two scratch buffers at what the point before left in them. -/
def PhiS1 (c : Dev nD) : (n : ℕ) → n ≤ cfg1.N → sProp 𝕄
  | 0, _ => Pipeline.ΦA spec1 c
  | n + 1, hn => iprop(withOthers1 (F := F) c iprop(owns (c : Thread nD τ) scM0 fullShare (scrAt V c n hn).1 ∗ owns (c : Thread nD τ) scM1 fullShare (scrAt V c n hn).2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(withOthers1 (F := F) c iprop(owns (c : Thread nD τ) scM0 fullShare (scrAt V c n hn).1 ∗ owns (c : Thread nD τ) scM1 fullShare (scrAt V c n hn).2) ∗ (∃ r, prngReg c r)) := rfl
theorem PhiS1_pos (c : Dev nD) (n : ℕ) (h : n ≤ cfg1.N) (hz : n ≠ 0) :
    PhiS1 V c n h = iprop(withOthers1 (F := F) c iprop(owns (c : Thread nD τ) scM0 fullShare (scrAt V c (n - 1) (by omega)).1 ∗ owns (c : Thread nD τ) scM1 fullShare (scrAt V c (n - 1) (by omega)).2) ∗ (∃ r, prngReg c r)) := by
  cases n with
  | zero => exact absurd rfl hz
  | succ n => rfl

/-! ## The proof data -/

/-- The proof data of the second region on core `c`: the arrays as the region finds them; after the body each input's
    buffer at its block, the output's at the scaled aggregate of the point's scratch contents (read only where the
    output is stored, at the last column blocks); the invariant `PhiS1`; nothing owed; the two windows onto the
    feature product hold its array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outNext (scrAt V c t.val t.isLt).1 (iblk1 V c 2 t) (scrAt V c t.val t.isLt).2 (iblk1 V c 3 t)
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = outNext (scrAt V c t.val t.isLt).1 (iblk1 V c 2 t) (scrAt V c t.val t.isLt).2 (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region1b

end Cert.KernelIdeal.Hand

end
-- ==== Proof.Region1Body.lean ====
/-
  The second region's body obligation.

  At every point the body is handed the invariant, the four input windows' buffers at their blocks and the output's
  buffer at whatever it holds, and must hand back the invariant of the next point, the inputs as they were, and the
  output's buffer: untouched off the last column blocks, at the scaled aggregate on them.  By the point's column block
  it is one of the body's three cases, run on the point's blocks and on the scratch contents the invariant names
  (anything at a first column block, where the body overwrites them).
-/
import proofs.«131101_j59588376264936_1_alg».proof.Proof.Gen.KernelIdeal.Launch
import proofs.«131101_j59588376264936_1_alg».proof.Proof.Gen.KernelIdeal.Skeleton
import proofs.«131101_j59588376264936_1_alg».proof.Proof.Gen.KernelIdeal.Points
import proofs.«131101_j59588376264936_1_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1Body

variable (V : (c : Dev nD) → (b : Ref sig .tc) → Buf (Elt F) ((c : Thread nD τ).loc b))

/-- A weaker statement about the scratch buffers beside the same other buffers. -/
theorem withOthers1_mono (c : Dev nD) {P Q : sProp 𝕄} (h : P ⊢ Q) : withOthers1 (F := F) c P ⊢ withOthers1 (F := F) c Q := by
  unfold withOthers1
  exact sep_mono .rfl (sep_mono .rfl (sep_mono .rfl (sep_mono .rfl (sep_mono .rfl h))))

/-- Before any point the invariant gives the scratch buffers at SOME contents (named ones forgotten). -/
theorem PhiS1_any (c : Dev nD) (n : ℕ) (h : n ≤ cfg1.N) :
    PhiS1 V c n h ⊢ iprop(withOthers1 (F := F) c iprop((∃ d, owns (c : Thread nD τ) scM0 fullShare d) ∗ (∃ d, owns (c : Thread nD τ) scM1 fullShare d)) ∗ (∃ r, prngReg c r)) := by
  by_cases hz : n = 0
  · rw [PhiS1_zero V c n h hz, PhiA1_eq]
  · rw [PhiS1_pos V c n h hz]
    refine sep_mono (withOthers1_mono c ?_) .rfl
    iintro ⟨H0, H1⟩
    isplitl [H0]; · iexists _; iexact H0
    iexists _; iexact H1

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- what it returns off the last column blocks (the output's buffer as it was found), -/
def bodyPostIdle1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (∃ d, owns (c : Thread nD τ) (st1_4 t) fullShare ((dat1 V c).before 4 t d)))

/-- and on them (the output stored). -/
def bodyPostLast1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- A first column block: the accumulators are overwritten, whatever they held. -/
theorem sound_body1_R (c : Dev nD) (t : Fin cfg1.N) (h0 : t.val % 4 = 0) :
    bodyPre1 V c t ⊢ wp frame (wpE (defs₀ (F := F)) Variants.none c none) Set.univ (bodyAt1 t) (fun _ => bodyPostIdle1 V c t) := by
  unfold bodyPre1 bodyPostIdle1 bodyAt1
  simp only [before1_0, before1_1, before1_2, before1_3]
  rw [PhiS1_castSucc, show (dat1 V c).Φ t.succ = PhiS1 V c (t.val + 1) t.isLt from rfl, PhiS1_succ,
    show (dat1 V c).owesAt () t.succ = (dat1 V c).owesAt () t.castSucc from rfl,
    after1_0, after1_1, after1_2, after1_3, scrAt_reset V c t h0]
  dsimp only
  have hΦ := PhiS1_any V c t.val (Nat.le_of_lt t.isLt)
  unfold withOthers1 at hΦ
  iintro ⟨HΦ, Ho, ⟨%d0, H0⟩, ⟨%d1, H1⟩, ⟨%d2, H2⟩, ⟨%d3, H3⟩, H4⟩
  ihave HΦ' := hΦ $$ HΦ
  icases HΦ' with ⟨⟨HA, HB, HC, HD, HE, HS0, HS1⟩, Hg⟩
  iapply (sound_kernel1_R c Set.univ (grid1.coords t) ((hcond1 t).mpr h0) (fun h => by have := (hcond2 t).mp h; omega) _ _ _ _ _ _ _ _ _ _ _ _ _ _ (iblk1 V c 0 t) (iblk1 V c 1 t) _)
  isplitl [H0]; · iexact H0
  isplitl [H1]; · iexact H1
  isplitl [HS0]; · iexact HS0
  isplitl [HS1]; · iexact HS1
  iintro ⟨H0, H1, HS0, HS1⟩
  isplitl [HA HB HC HD HE HS0 HS1 Hg]
  · isplitr [Hg]
    · unfold withOthers1
      isplitl [HA]; · iexact HA
      isplitl [HB]; · iexact HB
      isplitl [HC]; · iexact HC
      isplitl [HD]; · iexact HD
      isplitl [HE]; · iexact HE
      isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- A middle column block: the tile is added to what the point before left. -/
theorem sound_body1_M (c : Dev nD) (t : Fin cfg1.N) (h0 : ¬ t.val % 4 = 0) (h3 : ¬ t.val % 4 = 3) :
    bodyPre1 V c t ⊢ wp frame (wpE (defs₀ (F := F)) Variants.none c none) Set.univ (bodyAt1 t) (fun _ => bodyPostIdle1 V c t) := by
  unfold bodyPre1 bodyPostIdle1 bodyAt1
  simp only [before1_0, before1_1, before1_2, before1_3]
  rw [PhiS1_castSucc, show (dat1 V c).Φ t.succ = PhiS1 V c (t.val + 1) t.isLt from rfl, PhiS1_succ,
    show (dat1 V c).owesAt () t.succ = (dat1 V c).owesAt () t.castSucc from rfl,
    after1_0, after1_1, after1_2, after1_3, scrAt_add V c t h0,
    PhiS1_pos V c t.val (Nat.le_of_lt t.isLt) (fun hz => h0 (by rw [hz]))]
  dsimp only
  unfold withOthers1
  iintro ⟨⟨⟨HA, HB, HC, HD, HE, HS0, HS1⟩, Hg⟩, Ho, ⟨%d0, H0⟩, ⟨%d1, H1⟩, ⟨%d2, H2⟩, ⟨%d3, H3⟩, H4⟩
  iapply (sound_kernel1_M c Set.univ (grid1.coords t) (fun h => h0 ((hcond1 t).mp h)) (fun h => h3 ((hcond2 t).mp h)) _ _ _ _ _ _ _ _ _ _ _ _ _ _ (iblk1 V c 0 t) (iblk1 V c 1 t)
    (scrAt V c (t.val - 1) (Nat.lt_of_le_of_lt (Nat.sub_le _ _) t.isLt)).1 (scrAt V c (t.val - 1) (Nat.lt_of_le_of_lt (Nat.sub_le _ _) t.isLt)).2 _)
  isplitl [H0]; · iexact H0
  isplitl [H1]; · iexact H1
  isplitl [HS0]; · iexact HS0
  isplitl [HS1]; · iexact HS1
  iintro ⟨H0, H1, HS0, HS1⟩
  isplitl [HA HB HC HD HE HS0 HS1 Hg]
  · isplitr [Hg]
    · isplitl [HA]; · iexact HA
      isplitl [HB]; · iexact HB
      isplitl [HC]; · iexact HC
      isplitl [HD]; · iexact HD
      isplitl [HE]; · iexact HE
      isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- A last column block: the tile is added, then the output block is stored from the two accumulators, the row block's
    own features and the bias. -/
theorem sound_body1_L (c : Dev nD) (t : Fin cfg1.N) (h3 : t.val % 4 = 3) :
    bodyPre1 V c t ⊢ wp frame (wpE (defs₀ (F := F)) Variants.none c none) Set.univ (bodyAt1 t) (fun _ => bodyPostLast1 V c t) := by
  have h0 : ¬ t.val % 4 = 0 := by omega
  unfold bodyPre1 bodyPostLast1 bodyAt1
  simp only [before1_0, before1_1, before1_2, before1_3]
  rw [PhiS1_castSucc, show (dat1 V c).Φ t.succ = PhiS1 V c (t.val + 1) t.isLt from rfl, PhiS1_succ,
    show (dat1 V c).owesAt () t.succ = (dat1 V c).owesAt () t.castSucc from rfl,
    after1_0, after1_1, after1_2, after1_3, after1_4, scrAt_add V c t h0,
    PhiS1_pos V c t.val (Nat.le_of_lt t.isLt) (fun hz => h0 (by rw [hz]))]
  dsimp only
  unfold withOthers1
  iintro ⟨⟨⟨HA, HB, HC, HD, HE, HS0, HS1⟩, Hg⟩, Ho, ⟨%d0, H0⟩, ⟨%d1, H1⟩, ⟨%d2, H2⟩, ⟨%d3, H3⟩, ⟨%d4, H4⟩⟩
  iapply (sound_kernel1_L c Set.univ (grid1.coords t) (fun h => h0 ((hcond1 t).mp h)) ((hcond2 t).mpr h3) _ _ _ _ _ _ _ _ _ _ _ _ _ _ (iblk1 V c 0 t) (iblk1 V c 1 t) (iblk1 V c 2 t) (iblk1 V c 3 t)
    (scrAt V c (t.val - 1) (Nat.lt_of_le_of_lt (Nat.sub_le _ _) t.isLt)).1 (scrAt V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HA HB HC HD HE HS0 HS1 Hg]
  · isplitr [Hg]
    · isplitl [HA]; · iexact HA
      isplitl [HB]; · iexact HB
      isplitl [HC]; · iexact HC
      isplitl [HD]; · iexact HD
      isplitl [HE]; · iexact HE
      isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- The library's body obligation, at every point: by the point's column block. -/
theorem body_obligation1 (c : Dev nD) : BodyObligation (dat1 (F := F) V c) (defs₀ (F := F)) Variants.none () Set.univ := fun t => by
  rw [bigSep_W1, bigSep_W1]
  by_cases h3 : t.val % 4 = 3
  · have hi : idle1 4 (grid1.coords t) = false := (idle4 t).trans (by simp [h3])
    simp only [hi]
    exact sound_body1_L V c t h3
  · have hi : idle1 4 (grid1.coords t) = true := (idle4 t).trans (by simp [h3])
    have hf : (win1 4).flush t = false := Bool.eq_false_iff.mpr fun hfl => h3 ((flush1_4 t).mp hfl)
    simp only [hi, hf]
    by_cases h0 : t.val % 4 = 0
    · exact sound_body1_R V c t h0
    · exact sound_body1_M V c t h0 h3

end Region1Body

end Cert.KernelIdeal.Hand

end
-- ==== Proof.Run.lean ====
/-
  The run of @main: the first region, one host operation (the bias recast as a row), the second region.

  Between two items the core's unscoped buffers are whole at contents named by a fold from the launch memory: after
  the first region the feature product's array at what the 8 write-backs leave, after the host operation the bias row,
  after the second region the output array at what its 8 write-backs leave; nothing else changes, so every argument
  array ends as launched.  The second region reads the feature product through TWO windows (a column block and a row
  block of the same array): it holds that array's buffer at the two halves of the full share, split at entry and
  joined at exit.
-/
import proofs.«131101_j59588376264936_1_alg».proof.Proof.Gen.KernelIdeal.Launch
import proofs.«131101_j59588376264936_1_alg».proof.Proof.Gen.KernelIdeal.Skeleton
import proofs.«131101_j59588376264936_1_alg».proof.Proof.Gen.KernelIdeal.Points
import proofs.«131101_j59588376264936_1_alg».proof.Proof.Region0
import proofs.«131101_j59588376264936_1_alg».proof.Proof.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)

section Run

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references (the first region's entry contents). -/
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operation (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit: the output array at what the pipeline leaves, every other buffer as entered (the
    region's other arrays are inputs). -/
def W3 (c : Dev nD) : Valuation τ sig (Elt F) :=
  Function.update (W2 m ρ c) (Proc.devRef .tc main_v2) ((dat1 (V2 m ρ) c).arrAt 4 cfg1.N)
abbrev V3 : (c : Dev nD) → (b : Ref sig .tc) → Buf (Elt F) ((c : Thread nD τ).loc b) := fun c b => W3 m ρ c b
theorem W3_out (c : Dev nD) : W3 m ρ c (Proc.devRef .tc main_v2) = (dat1 (V2 m ρ) c).arrAt 4 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..

end Run

/-! ## The second region's arrays, one by one -/

section Shared

variable (V : (c : Dev nD) → (b : Ref sig .tc) → Buf (Elt F) ((c : Thread nD τ).loc b))

/-- The four distinct buffers behind the second region's five windows. -/
theorem arrBufs1_eq (c : Dev nD) (U' : (b : Ref sig .tc) → Buf (Elt F) ((c : Thread nD τ).loc b)) :
    (Pipeline.arrBufs (Ix := Unit) (Name := ℕ) (U := UR sig nD τ) (Lvl := ℕ) spec1 c U' : sProp 𝕄)
      = iprop((((c : Thread nD τ).loc main_arg1) ↦{fullShare} U' main_arg1) ∗ (((c : Thread nD τ).loc main_v0) ↦{fullShare} U' main_v0)
          ∗ (((c : Thread nD τ).loc main_v1) ↦{fullShare} U' main_v1) ∗ (((c : Thread nD τ).loc main_v2) ↦{fullShare} U' main_v2)) := by
  unfold Pipeline.arrBufs
  exact bigSep_eq_bigSepL_of_eq [main_arg1, main_v0, main_v1, main_v2] (by decide) (by decide) _

/-- The five windows' arrays at their shares: the feature product's buffer at the two halves. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_arg1) ↦{fullShare} Fn 0) ∗ (((c : Thread nD τ).loc main_v0) ↦{fullShare.left} Fn 1)
          ∗ (((c : Thread nD τ).loc main_v0) ↦{fullShare.right} Fn 2) ∗ (((c : Thread nD τ).loc main_v1) ↦{fullShare} Fn 3) ∗ (((c : Thread nD τ).loc main_v2) ↦{fullShare} Fn 4)) := by
  unfold Dat.arrays
  rw [bigSep_W1]
  rw [(arr_whole1 0).set_eq_univ, (arr_whole1 1).set_eq_univ, (arr_whole1 3).set_eq_univ, (arr_whole1 4).set_eq_univ]
  rfl

/-- ENTRY of the second region: the core's unscoped buffers at `V` are its five windows' arrays at the entry contents,
    the feature product's buffer split between its two windows, and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.PerCore.unscopedBufs_split₀ (fun _ : Dev nD => cfgs) (1 : Fin 2) c winFacts₀1.arr_unscoped (V c)]
  change iprop(Pipeline.arrBufs (Ix := Unit) (Name := ℕ) (U := UR sig nD τ) (Lvl := ℕ) spec1 c (V c) ∗ Pipeline.unscopedRest (Ix := Unit) (Name := ℕ) (U := UR sig nD τ) (Lvl := ℕ) spec1 c (V c)) ⊢ _
  rw [arrBufs1_eq, arrays1_eq]
  refine sep_mono ?_ .rfl
  simp only [show ∀ w, (dat1 V c).arrAt w 0 = (dat1 V c).A w from fun _ => rfl, A_eq1]
  iintro ⟨H0, H1, H3, H4⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H3]; · iexact H3
  iexact H4

/-- EXIT of the second region: its arrays after the write-backs (the four inputs' as entered, the halves joined) and
    the rest are the core's unscoped buffers at any contents `V'` that have the output array at what the pipeline leaves
    and agree with `V` elsewhere. -/
theorem exit1 (c : Dev nD) (V' : (b : Ref sig .tc) → Buf (Elt F) ((c : Thread nD τ).loc b))
    (hout : V' main_v2 = (dat1 V c).arrAt 4 cfg1.N) (hne : ∀ b, b ≠ main_v2 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.PerCore.unscopedBufs_split₀ (fun _ : Dev nD => cfgs) (1 : Fin 2) c winFacts₀1.arr_unscoped V']
  change _ ⊢ iprop(Pipeline.arrBufs (Ix := Unit) (Name := ℕ) (U := UR sig nD τ) (Lvl := ℕ) spec1 c V' ∗ Pipeline.unscopedRest (Ix := Unit) (Name := ℕ) (U := UR sig nD τ) (Lvl := ℕ) spec1 c V')
  rw [arrBufs1_eq, arrays1_eq, unscopedRest1_eq, unscopedRest1_eq]
  rw [hne main_arg0 (by decide), hne main_arg2 (by decide), hne main_arg3 (by decide), hne main_arg1 (by decide), hne main_v0 (by decide),
    hne main_v1 (by decide), hout]
  simp only [(dat1 V c).arrAt_in 0 rfl, (dat1 V c).arrAt_in 1 rfl, (dat1 V c).arrAt_in 2 rfl, (dat1 V c).arrAt_in 3 rfl, A_eq1]
  iintro ⟨⟨H0, H1a, H1b, H3, H4⟩, Hrest⟩
  isplitr [Hrest]
  swap; · iexact Hrest
  isplitl [H0]; · iexact H0
  isplitl [H1a H1b]
  · iapply (pointsTo_share (PosShare.mem_left_op_right fullShare)).2
    isplitl [H1a]; · iexact H1a
    iexact H1b
  isplitl [H3]; · iexact H3
  iexact H4

end Shared

/-! ## The proof data family, the thread state, the regions as segments -/

section Launch

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor
/-- The host operation as a segment, from the first region's exit contents. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The first region over the thread state: entered from every unscoped buffer at launch, left with the feature product's
    array at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from the contents after the host operation, left with the output
    array at what its write-backs leave.  The invariant before its first point is the class's, after its last point it
    gives the class's back (the scratch buffers' named contents forgotten). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := PhiS1_any (V2 m ρ) c cfg1.N (Nat.le_refl _)
    rw [← PhiA1_eq] at h
    rw [show (pdats m ρ 1 c).Φ (Fin.last _) = PhiS1 (V2 m ρ) c cfg1.N (Nat.le_refl _) from rfl]
    refine h.trans ?_
    unfold Pipeline.ΦA
    iintro ⟨Hr, Hp⟩
    isplitl [Hp]; · iexact Hp
    isplitr; · iempintro
    iexact Hr
  hexit c := by
    have hjoin := exit1 (V2 m ρ) c (V3 m ρ c) (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's three items in order. -/
abbrev segs : List (Pipeline.Seg (pcfgs (F := F)) adm (pdats m ρ) () defs₀ 𝒱₀ L lv) :=
  [ .region (reg0 m ρ), .host (hseg1 m ρ), .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Launch

end Cert.KernelIdeal.Hand

end
-- ==== Proof.RunFacts.lean ====
/-
  The frame, read off the run.

  No item of @main writes an argument array: the first region reads the features and the weight through input windows
  and bypasses the adjacency and the bias, the host operation writes only the bias row, the second region writes only
  the output array.  So the last boundary's contents at each argument walk back through the fold to the launch memory,
  and the run's post gives the frame claim.
-/
import proofs.«131101_j59588376264936_1_alg».proof.Proof.Gen.KernelIdeal.Launch
import proofs.«131101_j59588376264936_1_alg».proof.Proof.Gen.KernelIdeal.Skeleton
import proofs.«131101_j59588376264936_1_alg».proof.Proof.Gen.KernelIdeal.Points
import proofs.«131101_j59588376264936_1_alg».proof.Proof.Run
import proofs.«131101_j59588376264936_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Facts

variable (m : (ℓ : Loc nD τ sig) → Buf (Elt F) ℓ) (ρ : Dev nD → PrngReg)

/-- The host operation writes the bias row only. -/
theorem W2_of (c : Dev nD) (r : Ref sig .tc) (h : r ∉ hostOps1_W) : W2 m ρ c r = W1 m ρ c r :=
  StableHlo.after_of_writes_sub hostOps1 _ hostOps1_writes h

theorem W3_main_arg0 (c : Dev nD) : W3 m ρ c (Proc.devRef .tc main_arg0) = m ((c : Thread nD τ).loc main_arg0) :=
  (W3_of_ne m ρ c main_arg0 (by decide)).trans <| (W2_of m ρ c main_arg0 (by decide)).trans <| (W1_arr m ρ c 0).trans <|
    ((dat0 (V0 m ρ) c).arrAt_in 0 rfl _).trans (A_eq0 (V0 m ρ) c 0)
theorem W3_main_arg1 (c : Dev nD) : W3 m ρ c (Proc.devRef .tc main_arg1) = m ((c : Thread nD τ).loc main_arg1) :=
  (W3_of_ne m ρ c main_arg1 (by decide)).trans <| (W2_of m ρ c main_arg1 (by decide)).trans <| W1_of_ne m ρ c main_arg1 (by decide)
theorem W3_main_arg2 (c : Dev nD) : W3 m ρ c (Proc.devRef .tc main_arg2) = m ((c : Thread nD τ).loc main_arg2) :=
  (W3_of_ne m ρ c main_arg2 (by decide)).trans <| (W2_of m ρ c main_arg2 (by decide)).trans <| (W1_arr m ρ c 1).trans <|
    ((dat0 (V0 m ρ) c).arrAt_in 1 rfl _).trans (A_eq0 (V0 m ρ) c 1)
theorem W3_main_arg3 (c : Dev nD) : W3 m ρ c (Proc.devRef .tc main_arg3) = m ((c : Thread nD τ).loc main_arg3) :=
  (W3_of_ne m ρ c main_arg3 (by decide)).trans <| (W2_of m ρ c main_arg3 (by decide)).trans <| W1_of_ne m ρ c main_arg3 (by decide)

/-- THE FRAME, at any float instance: every weakly fair execution of @main terminates, nothing faulting, with the four
    argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Facts

end Cert.KernelIdeal.Hand

end
-- ==== Proof.Spec.lean ====
/-
  The mathematics of the claim, stated once over plain index functions (no program is imported here).

  A graph-convolution layer with self loops and degree normalisation.  With `s = x · w` the feature
  product (`support`), `a` the adjacency and `deg r = (∑ k, a r k) + 1` the degree of row `r` counting
  its self loop, the layer's output is

      out r j = (1 / deg r) · ((∑ k, a r k · s k j) + s r j) + b j .

  That is the AGGREGATED form (`Gat`): the neighbours' features are summed first and the row is scaled
  once.  The other way to write the same layer scales the matrix first: with `δ` the identity matrix,

      out r j = (∑ k, ((1 / ∑ k', (a r k' + δ r k')) · (a r k + δ r k)) · s k j) + b j .

  The two agree by distributivity of the product over the sum, which on the extended reals needs every
  term to be a real number and the scale `1 / deg r` to be a real number: the entries of `x`, `a`, `w`
  finite and the degree nonzero (`normalised_eq_aggregated`).  Where the degree is zero the scale is
  `1 / 0 = +∞` and the two forms differ (`⊤ · (u + v)` against `⊤ · u + ⊤ · v` with `u < 0 < v`).
-/
import Idealize.ShloMosaic.PureOps.Ideal
import Idealize.ShloMosaic.Lib.ValueIdx

noncomputable section

open scoped BigOperators

namespace Cert.Spec

open Idealize.ShloMosaic Idealize.ShloMosaic.ValueIdx

/-- Node features `x : [8192, 256]`. -/
abbrev SX : Shape := ⟨2, ![8192, 256]⟩
/-- Adjacency `a : [8192, 8192]`. -/
abbrev SA : Shape := ⟨2, ![8192, 8192]⟩
/-- Weight `w : [256, 128]`. -/
abbrev SW : Shape := ⟨2, ![256, 128]⟩
/-- Bias `b : [128]`. -/
abbrev SB : Shape := ⟨1, ![128]⟩
/-- Output and feature product `[8192, 128]`. -/
abbrev SO : Shape := ⟨2, ![8192, 128]⟩

/-- The feature product `s = x · w` at row `r`, column `j`. -/
def support (x : SX.Idx → EReal) (w : SW.Idx → EReal) (r : Fin 8192) (j : Fin 128) : EReal :=
  ∑ f : Fin 256, x (ix2 r f) * w (ix2 f j)

/-- The identity matrix: the self loop of node `r`. -/
def eye (r k : Fin 8192) : EReal := if r = k then 1 else 0

/-- The layer's output at row `r`, column `j`, in the aggregated form: the neighbours' features summed, the
    node's own added, the row scaled by the inverse degree (self loop counted), the bias added. -/
def Gat (x : SX.Idx → EReal) (a : SA.Idx → EReal) (w : SW.Idx → EReal) (b : SB.Idx → EReal) (r : Fin 8192) (j : Fin 128) : EReal :=
  Ideal.div 1 ((∑ k : Fin 8192, a (ix2 r k)) + 1)
      * ((∑ k : Fin 8192, a (ix2 r k) * support x w k j) + support x w r j)
    + b (ix1 j)

/-- The layer's output array. -/
def G (x : SX.Idx → EReal) (a : SA.Idx → EReal) (w : SW.Idx → EReal) (b : SB.Idx → EReal) : SO.Idx → EReal :=
  fun o => Gat x a w b (o 0) (o 1)

theorem G_apply (x : SX.Idx → EReal) (a : SA.Idx → EReal) (w : SW.Idx → EReal) (b : SB.Idx → EReal) (r : Fin 8192) (j : Fin 128) :
    G x a w b (ix2 r j) = Gat x a w b r j := rfl

/-- A finite sum of real numbers, each read as an extended real, is the real sum read as an extended real. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- The identity row sums to one, so a row of `a + δ` sums to the row of `a` plus one. -/
theorem sum_add_delta {ι : Type*} [Fintype ι] [DecidableEq ι] (A : ι → ℝ) (r : ι) :
    ∑ k, (A k + (if r = k then (1 : ℝ) else 0)) = (∑ k, A k) + 1 := by
  rw [Finset.sum_add_distrib, Finset.sum_ite_eq, if_pos (Finset.mem_univ r)]

/-- Distributivity in the reals: scaling every entry of the row of `a + δ` by `c` and then pairing with `S`
    is `c` times (the row of `a` paired with `S`, plus the diagonal term `S r`). -/
theorem scaled_row_pairing {ι : Type*} [Fintype ι] [DecidableEq ι] (A S : ι → ℝ) (r : ι) (c : ℝ) :
    ∑ k, (c * (A k + (if r = k then (1 : ℝ) else 0))) * S k = c * ((∑ k, A k * S k) + S r) := by
  have hδ : ∑ k, (if r = k then (1 : ℝ) else 0) * S k = S r := by
    simp only [ite_mul, one_mul, zero_mul]
    rw [Finset.sum_ite_eq, if_pos (Finset.mem_univ r)]
  calc ∑ k, (c * (A k + (if r = k then (1 : ℝ) else 0))) * S k
      = ∑ k, c * (A k * S k + (if r = k then (1 : ℝ) else 0) * S k) := by
        refine Finset.sum_congr rfl fun k _ => ?_
        ring
    _ = c * ((∑ k, A k * S k) + S r) := by
        rw [← Finset.mul_sum, Finset.sum_add_distrib, hδ]

/-- Scaling the matrix first and aggregating afterwards gives the aggregated form, when the entries are real
    numbers and no row's degree (self loop counted) is zero. -/
theorem normalised_eq_aggregated (x : SX.Idx → EReal) (a : SA.Idx → EReal) (w : SW.Idx → EReal) (b : SB.Idx → EReal)
    (hx : ∀ i, ∃ v : ℝ, x i = (v : EReal)) (ha : ∀ i, ∃ v : ℝ, a i = (v : EReal)) (hw : ∀ i, ∃ v : ℝ, w i = (v : EReal))
    (hdeg : ∀ r : Fin 8192, (∑ k : Fin 8192, (a (ix2 r k) + eye r k)) ≠ 0) (r : Fin 8192) (j : Fin 128) :
    (∑ k : Fin 8192, (Ideal.div 1 (∑ k' : Fin 8192, (a (ix2 r k') + eye r k')) * (a (ix2 r k) + eye r k)) * support x w k j)
        + b (ix1 j)
      = Gat x a w b r j := by
  -- real witnesses for every entry
  choose xv hxv using hx
  choose av hav using ha
  choose wv hwv using hw
  -- the feature product is a real number
  have hs : ∀ k : Fin 8192, support x w k j = ((∑ f : Fin 256, xv (ix2 k f) * wv (ix2 f j) : ℝ) : EReal) := by
    intro k
    unfold support
    rw [← sum_coe]
    refine Finset.sum_congr rfl fun f _ => ?_
    rw [hxv, hwv, EReal.coe_mul]
  -- the identity entry is a real number
  have he : ∀ k : Fin 8192, eye r k = ((if r = k then (1 : ℝ) else 0 : ℝ) : EReal) := by
    intro k
    unfold eye
    split_ifs <;> simp
  -- an entry of `a + δ` is a real number
  have hae : ∀ k : Fin 8192, a (ix2 r k) + eye r k
      = ((av (ix2 r k) + (if r = k then (1 : ℝ) else 0) : ℝ) : EReal) := by
    intro k
    rw [hav, he, EReal.coe_add]
  -- the degree, in both spellings, is the real number `D = (∑ k, a r k) + 1`
  have hD1 : (∑ k' : Fin 8192, (a (ix2 r k') + eye r k'))
      = (((∑ k : Fin 8192, av (ix2 r k)) + 1 : ℝ) : EReal) := by
    rw [← sum_add_delta, ← sum_coe]
    exact Finset.sum_congr rfl fun k _ => hae k
  have hD2 : (∑ k : Fin 8192, a (ix2 r k)) + 1
      = (((∑ k : Fin 8192, av (ix2 r k)) + 1 : ℝ) : EReal) := by
    have h : (∑ k : Fin 8192, a (ix2 r k)) = ∑ k : Fin 8192, ((av (ix2 r k) : ℝ) : EReal) :=
      Finset.sum_congr rfl fun k _ => hav _
    rw [h, sum_coe, EReal.coe_add, EReal.coe_one]
  have hD0 : (∑ k : Fin 8192, av (ix2 r k)) + 1 ≠ 0 := by
    intro h
    apply hdeg r
    rw [hD1, h, EReal.coe_zero]
  -- the aggregate over the neighbours is a real number
  have hagg : (∑ k : Fin 8192, a (ix2 r k) * support x w k j)
      = ((∑ k : Fin 8192, av (ix2 r k) * (∑ f : Fin 256, xv (ix2 k f) * wv (ix2 f j)) : ℝ) : EReal) := by
    rw [← sum_coe]
    refine Finset.sum_congr rfl fun k _ => ?_
    rw [hav, hs, EReal.coe_mul]
  unfold Gat
  rw [hD1, hD2, hagg, hs r, Ideal.div_coe hD0, one_mul]
  refine congrArg (fun t => t + b (ix1 j)) ?_
  -- both sides are now real numbers; the identity is distributivity in the reals
  rw [← EReal.coe_add, ← EReal.coe_mul, ← scaled_row_pairing, ← sum_coe]
  refine Finset.sum_congr rfl fun k _ => ?_
  rw [hae, hs, EReal.coe_mul, EReal.coe_mul]

end Cert.Spec

end
-- ==== Proof.Value0.lean ====
/-
  What the first region leaves in the feature product's array, at the extended reals.

  Point `t` of the 8 writes rows `1024 t … 1024 t + 1023` of the array: the product of those rows of the features
  with the whole weight (narrowing a float's format changes nothing here, and the accumulator starts at zero).  The 8
  blocks tile the array, so after the region entry `(r, j)` is `∑ f, x r f · w f j`.
-/
import proofs.«131101_j59588376264936_1_alg».proof.Proof.Region0
import proofs.«131101_j59588376264936_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## One point's block: the product of the two loaded blocks -/

/-- The offsets of a whole-buffer access are all zero. -/
theorem zeroOffsets : (![0, 0] : Fin 2 → ℕ) = fun _ => 0 := by funext a; fin_cases a <;> rfl

/-- Loading each buffer whole and storing the result whole, the body leaves its arithmetic applied to the two blocks themselves. -/
theorem out0_2_eq_payload (x0 : Vec Ideal S1024x256 .f32) (x1 : Vec Ideal S256x128 .f32) :
    out0_2 x0 x1 = k0_pay1 x0 x1 := by
  unfold out0_2
  rw [View.canon_unit_zero (S := S1024x128) zeroOffsets]
  simp only [View.ld_unit_zero (S := S1024x256) zeroOffsets, View.ld_unit_zero (S := S256x128) zeroOffsets]

/-! ### The operand indices of the block product: row of the left, column of the right, the contracted axis shared -/

theorem lhs_blockDot_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_blockDot_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_blockDot_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_blockDot_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The body's arithmetic at row `p`, column `q` of the block: the sum over the 256 features of the left block's entry times the
    right block's entry (narrowing is the identity, the accumulator is zero). -/
theorem payload_apply (x0 : FVec Ideal S1024x256 .f32) (x1 : FVec Ideal S256x128 .f32) (p : Fin 1024) (q : Fin 128) :
    k0_pay1 x0 x1 (ix2 p q) = ∑ f : Fin 256, x0 (ix2 p f) * x1 (ix2 f q) := by
  unfold k0_pay1
  simp only [matmul]
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 p q) ((ValueIdx.contrEquiv1 dot_S1024x256_S256x128_S1024x128_1_0_0_1_n_n 256 rfl rfl).symm k) = ix2 p k := funext fun a => Fin.ext (by
    match a with
    | ⟨0, _⟩ => exact lhs_blockDot_0 _ _
    | ⟨1, _⟩ => exact (lhs_blockDot_1 _ _).trans hk)
  have er : dot_S1024x256_S256x128_S1024x128_1_0_0_1_n_n.rhsIdx (ix2 p q) ((ValueIdx.contrEquiv1 dot_S1024x256_S256x128_S1024x128_1_0_0_1_n_n 256 rfl rfl).symm k) = ix2 k q := funext fun a => Fin.ext (by
    match a with
    | ⟨0, _⟩ => exact (rhs_blockDot_0 _ _).trans hk
    | ⟨1, _⟩ => exact rhs_blockDot_1 _ _)
  rw [el, er]
  rfl

/-! ## From the blocks to the array -/

variable (V : (c : Dev nD) → (b : Ref sig .tc) → Buf (Elt Ideal) ((c : Thread nD τ).loc b))

/-- The features as the region finds them. -/
abbrev featArr (c : Dev nD) : FVec Ideal S8192x256 .f32 := V c main_arg0
/-- The weight as the region finds it. -/
abbrev weightArr (c : Dev nD) : FVec Ideal S256x128 .f32 := V c main_arg2

/-- The feature product of two whole arrays, as an array: entry `(r, j)` is `∑ f, x r f · w f j`. -/
def productArr (x : FVec Ideal S8192x256 .f32) (w : FVec Ideal S256x128 .f32) : FVec Ideal S8192x128 .f32 :=
  fun o => Cert.Spec.support x w (o 0) (o 1)

theorem productArr_apply (x : FVec Ideal S8192x256 .f32) (w : FVec Ideal S256x128 .f32) (r : Fin 8192) (j : Fin 128) :
    productArr x w (ix2 r j) = ∑ f : Fin 256, x (ix2 r f) * w (ix2 f j) := rfl

/-- If the left block holds rows `1024 b … 1024 b + 1023` of `x` and the right block is all of `w`, the block product
    at `y` is the feature product of `x` and `w` at row `1024 b + y₀`, column `y₁`. -/
theorem payload_eq_product (x : FVec Ideal S8192x256 .f32) (w : FVec Ideal S256x128 .f32)
    (x0 : FVec Ideal S1024x256 .f32) (x1 : FVec Ideal S256x128 .f32) (b : ℕ)
    (hx0 : ∀ (p : Fin 1024) (f : Fin 256) (k : S8192x256.Idx), (k 0).val = b * 1024 + p.val → (k 1).val = f.val → x0 (ix2 p f) = x k)
    (hx1 : ∀ (f : Fin 256) (q : Fin 128), x1 (ix2 f q) = w (ix2 f q))
    (y : S1024x128.Idx) (i : S8192x128.Idx) (hi0 : (i 0).val = b * 1024 + (y 0).val) (hi1 : (i 1).val = (y 1).val) :
    k0_pay1 x0 x1 y = productArr x w i := by
  obtain ⟨p, q, rfl⟩ : ∃ (p : Fin 1024) (q : Fin 128), y = ix2 p q := ⟨y 0, y 1, eq_ix2 y⟩
  obtain ⟨r, j, rfl⟩ : ∃ (r : Fin 8192) (j : Fin 128), i = ix2 r j := ⟨i 0, i 1, eq_ix2 i⟩
  rw [payload_apply, productArr_apply]
  obtain rfl : j = q := Fin.ext hi1
  refine Finset.sum_congr rfl fun f _ => ?_
  rw [hx0 p f (ix2 r f) hi0 rfl, hx1]

/-- The block indices of the three windows at point `t`: the features' and the output's row block is `t`, everything
    else is block 0. -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is rows `1024 t … 1024 t + 1023` of the features. -/
theorem featBlock_apply (c : Dev nD) (t : Fin cfg0.N) (p : Fin 1024) (f : Fin 256) (k : S8192x256.Idx)
    (hk0 : (k 0).val = t.val * 1024 + p.val) (hk1 : (k 1).val = f.val) :
    (iblk0 V c 0 t : FVec Ideal S1024x256 .f32) (ix2 p f) = featArr V c k := by
  obtain ⟨e00, e01, -⟩ := blockIndex_facts t
  unfold iblk0
  rw [View.read_apply]
  show V c main_arg0 _ = V c main_arg0 _
  congr 1
  funext a
  apply Fin.ext
  match a with
  | ⟨0, _⟩ => show win0_0.index t (0 : Fin 2) * 1024 + 1 * p.val = (k 0).val; rw [e00, hk0]; omega
  | ⟨1, _⟩ => show win0_0.index t (1 : Fin 2) * 256 + 1 * f.val = (k 1).val; rw [e01, hk1]; omega

/-- The weight's block at every point is the whole weight. -/
theorem weightBlock_apply (c : Dev nD) (t : Fin cfg0.N) (f : Fin 256) (q : Fin 128) :
    (iblk0 V c 1 t : FVec Ideal S256x128 .f32) (ix2 f q) = weightArr V c (ix2 f q) := by
  obtain ⟨-, -, e10, e11, -⟩ := blockIndex_facts t
  unfold iblk0
  rw [View.read_apply]
  show V c main_arg2 _ = V c main_arg2 _
  congr 1
  funext a
  apply Fin.ext
  match a with
  | ⟨0, _⟩ => show win0_1.index t (0 : Fin 2) * 256 + 1 * f.val = f.val; rw [e10]; omega
  | ⟨1, _⟩ => show win0_1.index t (1 : Fin 2) * 128 + 1 * q.val = q.val; rw [e11]; omega

/-- What point `t` writes back is block `t` of the feature product of the two arrays. -/
theorem flushed_eq_product (c : Dev nD) (t : Fin cfg0.N) :
    (dat0 (F := Ideal) V c).flushed 2 t
      = ((cfg0.win 2).blk t).view.read (Elt Ideal) (productArr (featArr V c) (weightArr V c)) := by
  show (cfg0.win 2).cut (grid0.coords t) ((dat0 V c).after 2 t) = _
  rw [after0_2, out0_2_eq_payload]
  obtain ⟨-, -, -, -, e20, e21⟩ := blockIndex_facts t
  funext y
  rw [View.read_apply]
  refine payload_eq_product (featArr V c) (weightArr V c) (iblk0 V c 0 t) (iblk0 V c 1 t) t.val
    (fun p f k h0 h1 => featBlock_apply V c t p f k h0 h1) (fun f q => weightBlock_apply V c t f q) _ _ ?_ ?_
  · show win0_2.index t (0 : Fin 2) * 1024 + 1 * (y 0).val = t.val * 1024 + (y 0).val; rw [e20]; omega
  · show win0_2.index t (1 : Fin 2) * 128 + 1 * (y 1).val = (y 1).val; rw [e21]; omega

/-- An index of the array is in point `t`'s block iff each coordinate is in the block's range on its axis. -/
theorem mem_outBlock (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- The 8 row blocks tile the array: row `r` is in the block of point `r / 1024`. -/
theorem outBlocks_cover (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : grid0.N = 8 := N_0
  have ht : (i 0).val / 1024 < grid0.N := by rw [hN]; omega
  obtain ⟨-, -, -, -, e20, e21⟩ := blockIndex_facts ⟨(i 0).val / 1024, ht⟩
  refine ⟨⟨(i 0).val / 1024, ht⟩, flush0_2 _, ?_⟩
  rw [mem_outBlock]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e20]; show (i 0).val / 1024 * 1024 ≤ (i 0).val ∧ (i 0).val < (i 0).val / 1024 * 1024 + 1024; omega
  | ⟨1, _⟩ =>
    show win0_2.index ⟨(i 0).val / 1024, ht⟩ (1 : Fin 2) * 128 ≤ (i 1).val ∧ (i 1).val < win0_2.index ⟨(i 0).val / 1024, ht⟩ (1 : Fin 2) * 128 + 128
    rw [e21]; omega

/-- After the first region the feature product's array holds, at row `r` and column `j`, the sum over the 256 features
    of the feature entry times the weight entry, of the arrays as the region found them. -/
theorem support_array (c : Dev nD) (r : Fin 8192) (j : Fin 128) :
    (dat0 (F := Ideal) V c).arrAt 2 cfg0.N (ix2 r j) = Cert.Spec.support (V c main_arg0) (V c main_arg2) r j := by
  have h := (dat0 (F := Ideal) V c).arrAt_eq_of_cover 2 (productArr (featArr V c) (weightArr V c))
    (fun t _ => flushed_eq_product V c t) outBlocks_cover
  exact congrFun h (ix2 r j)

end Cert.KernelIdeal.Hand

end
-- ==== Proof.Value1.lean ====
/-
  What the second region leaves in the output array, at the extended reals.

  Row block `i` of the output is written once, at the last of the block's four points, from the two scratch
  accumulators: after the four tiles of a row block the one holds `∑ k, a r k · s k j` over all 8192 columns (four
  partial products over 2048 columns each, added to zero in turn) and the other the row sum `∑ k, a r k`; the stored
  block is (accumulator + the row block's own rows of `s`) scaled by `1 / (row sum + 1)`, plus the bias row.  The 8
  row blocks tile the array.

  Three steps.  First the body's three updates at one entry, over any blocks: the product accumulator gains the tile's row
  paired with the block's column (a sum over the tile's 2048 columns), the row-sum accumulator gains the tile's row sum,
  and the stored entry is `1 / (rs + 1) · (acc + z) + b`.  Then, by induction over the points of a row block, what the two
  accumulators hold after column block `k`: the partial sums over the first `(k + 1) · 2048` columns of the arrays' row —
  each block read where its rectangle lies in its array, the partial sums taken over an initial segment of the naturals
  so that the next block's 2048 terms append.  Last, at a row block's fourth point the partial sums are the full sums, so
  the block written back is that row block of one function of the output's index, and the eight written blocks cover
  the array.
-/
import proofs.«131101_j59588376264936_1_alg».proof.Proof.Region1
import proofs.«131101_j59588376264936_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's three updates read at an entry -/

/-- The tile product's left operand index at the output's row and a contraction index: the output's row … -/
theorem lhs_tile_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
/-- … and the contraction index as its column. -/
theorem lhs_tile_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- The right operand index: the contraction index as its row … -/
theorem rhs_tile_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
/-- … and the output's column. -/
theorem rhs_tile_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product of a 1024 × 2048 tile with a 2048 × 128 block, accumulated into zero, at row `p` and column `q`: the sum over the
    tile's 2048 columns of the tile's entry times the block's. -/
theorem tile_product_apply (x : FVec Ideal S1024x2048 .bf16) (y : FVec Ideal S2048x128 .bf16) (p : Fin 1024) (q : Fin 128) :
    matmul dot_S1024x2048_S2048x128_S1024x128_1_0_0_1_n_n none x y (constant (F := Ideal) S1024x128 .f32 0x00000000#32) (ix2 p q)
      = ∑ k : Fin 2048, x (ix2 p k) * y (ix2 k q) := by
  show FloatOps.matmul dot_S1024x2048_S2048x128_S1024x128_1_0_0_1_n_n none x y (constant (F := Ideal) S1024x128 .f32 0x00000000#32) (ix2 p q) = _
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun a => Fin.ext (by
    match a with
    | ⟨0, _⟩ => exact lhs_tile_0 _ _
    | ⟨1, _⟩ => exact (lhs_tile_1 _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun a => Fin.ext (by
    match a with
    | ⟨0, _⟩ => exact (rhs_tile_0 _ _).trans hk
    | ⟨1, _⟩ => exact rhs_tile_1 _ _)
  rw [el, er]

/-- The accumulator's update at row `p`, column `q`: what it held plus the tile's row `p` paired with the block's column `q`. -/
theorem accNext_apply (x : Vec Ideal S1024x2048 .f32) (y : Vec Ideal S2048x128 .f32) (acc : Vec Ideal S1024x128 .f32) (p : Fin 1024) (q : Fin 128) :
    accNext x y acc (ix2 p q) = acc (ix2 p q) + ∑ k : Fin 2048, x (ix2 p k) * y (ix2 k q) := by
  unfold accNext k1_pay4
  rw [shapeCast_self, shapeCast_self]
  show acc (ix2 p q) + _ = _
  refine congrArg (acc (ix2 p q) + ·) ?_
  exact tile_product_apply _ _ p q

/-- A vector of length `a` viewed as a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a 1024 × 2048 tile along its columns, at row `p`. -/
theorem tile_rowsum_apply (x : FVec Ideal S1024x2048 .f32) (p : Fin 1024) :
    multiReduction (F := Ideal) .add [1] S1024 x 0x00000000#32 reduces_S1024x2048_S1024 (.inl rfl) rfl (ix1 p) = ∑ k : Fin 2048, x (ix2 p k) := by
  refine (Ideal.multiReduction_add_single x 0x00000000#32 reduces_S1024x2048_S1024 (.inl rfl) rfl (ix1 p)).trans ?_
  refine Finset.sum_congr rfl fun k _ => ?_
  exact congrArg x (funext fun a => Fin.ext (by match a with | ⟨0, _⟩ => rfl | ⟨1, _⟩ => rfl))

/-- The row-sum scratch's update at row `p`: what it held plus the sum of the tile's row `p`. -/
theorem rsNext_apply (x : Vec Ideal S1024x2048 .f32) (rs : Vec Ideal S1024x1 .f32) (p : Fin 1024) :
    rsNext x rs (ix2 p (0 : Fin 1)) = rs (ix2 p (0 : Fin 1)) + ∑ k : Fin 2048, x (ix2 p k) := by
  unfold rsNext k1_pay3
  dsimp only
  rw [shapeCast_self]
  show rs (ix2 p (0 : Fin 1)) + _ = _
  refine congrArg (rs (ix2 p (0 : Fin 1)) + ·) ?_
  refine (shapeCast_a_a1_apply _ shapeCasts_S1024_S1024x1 p (0 : Fin 1)).trans ?_
  exact tile_rowsum_apply x p

/-- The stored block at row `p`, column `q`: the inverse of (row sum + 1) times (accumulator + the row's own entry), plus the bias. -/
theorem outNext_apply (accN : Vec Ideal S1024x128 .f32) (z : Vec Ideal S1024x128 .f32) (rsN : Vec Ideal S1024x1 .f32) (bb : Vec Ideal S1x128 .f32)
    (p : Fin 1024) (q : Fin 128) :
    outNext accN z rsN bb (ix2 p q)
      = Ideal.div 1 (rsN (ix2 p (0 : Fin 1)) + 1) * (accN (ix2 p q) + z (ix2 p q)) + bb (ix2 (0 : Fin 1) q) := by
  unfold outNext k1_pay5
  rw [shapeCast_self, shapeCast_self]
  show broadcastTo S1024x128 _ broadcasts_S1024x1_S1024x128 (ix2 p q) * (accN (ix2 p q) + z (ix2 p q)) + broadcastTo S1024x128 bb broadcasts_S1x128_S1024x128 (ix2 p q) = _
  rw [broadcastTo_a1_ab_apply _ broadcasts_S1024x1_S1024x128 p q, broadcastTo_1b_ab_apply bb broadcasts_S1x128_S1024x128 p q]
  show Ideal.div (Ideal.ofBits .f32 0x3F800000#32) (rsN (ix2 p (0 : Fin 1)) + Ideal.ofBits .f32 0x3F800000#32) * _ + _ = _
  rw [Ideal.ofBits_one_f32]

variable (V : (c : Dev nD) → (b : Ref sig .tc) → Buf (Elt Ideal) ((c : Thread nD τ).loc b))

/-- The adjacency, the feature product and the bias row as the region finds them, at their literal types. -/
abbrev adjArr (c : Dev nD) : FVec Ideal S8192x8192 .f32 := V c main_arg1
abbrev supArr (c : Dev nD) : FVec Ideal S8192x128 .f32 := V c main_v0
abbrev biasRow (c : Dev nD) : FVec Ideal S1x128 .f32 := V c main_v1

/-! ## The input blocks, read where their rectangles say -/

/-- The four input blocks at a point, at their literal types: the adjacency's tile, the 2048 rows of the feature product that
    match the tile's columns, the 1024 rows of the feature product that match the tile's rows, the bias row. -/
abbrev adjBlk (c : Dev nD) (t : Fin cfg1.N) : Vec Ideal S1024x2048 .f32 := iblk1 V c 0 t
abbrev supColBlk (c : Dev nD) (t : Fin cfg1.N) : Vec Ideal S2048x128 .f32 := iblk1 V c 1 t
abbrev supRowBlk (c : Dev nD) (t : Fin cfg1.N) : Vec Ideal S1024x128 .f32 := iblk1 V c 2 t
abbrev biasBlk (c : Dev nD) (t : Fin cfg1.N) : Vec Ideal S1x128 .f32 := iblk1 V c 3 t

/-- The block indices over the 32 points: point `t` is row block `t / 4` and column block `t % 4`. -/
theorem idx_facts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

/-- The tile's entry `(p, k)` is the adjacency's at row `1024 (t / 4) + p`, column `2048 (t % 4) + k`. -/
theorem adjBlk_apply (c : Dev nD) (t : Fin cfg1.N) (p : Fin 1024) (k : Fin 2048) (r : Fin 8192) (kk : Fin 8192)
    (hr : r.val = t.val / 4 * 1024 + p.val) (hk : kk.val = t.val % 4 * 2048 + k.val) :
    adjBlk V c t (ix2 p k) = adjArr V c (ix2 r kk) := by
  obtain ⟨e00, e01, -⟩ := idx_facts1 t
  show ((cfg1.win 0).blk t).view.read (Elt Ideal) (V c (Pipeline.arrRef spec1 0)) (ix2 p k) = _
  rw [View.read_apply]
  show V c main_arg1 _ = V c main_arg1 _
  refine congrArg (V c main_arg1) (funext fun a => Fin.ext ?_)
  match a with
  | ⟨0, _⟩ => show win1_0.index t (0 : Fin 2) * 1024 + 1 * p.val = r.val; rw [e00, hr]; omega
  | ⟨1, _⟩ => show win1_0.index t (1 : Fin 2) * 2048 + 1 * k.val = kk.val; rw [e01, hk]; omega

/-- The column block's entry `(k, q)` is the feature product's at row `2048 (t % 4) + k`, column `q`. -/
theorem supColBlk_apply (c : Dev nD) (t : Fin cfg1.N) (k : Fin 2048) (q : Fin 128) (kk : Fin 8192)
    (hk : kk.val = t.val % 4 * 2048 + k.val) :
    supColBlk V c t (ix2 k q) = supArr V c (ix2 kk q) := by
  obtain ⟨-, -, e10, e11, -⟩ := idx_facts1 t
  show ((cfg1.win 1).blk t).view.read (Elt Ideal) (V c (Pipeline.arrRef spec1 1)) (ix2 k q) = _
  rw [View.read_apply]
  show V c main_v0 _ = V c main_v0 _
  refine congrArg (V c main_v0) (funext fun a => Fin.ext ?_)
  match a with
  | ⟨0, _⟩ => show win1_1.index t (0 : Fin 2) * 2048 + 1 * k.val = kk.val; rw [e10, hk]; omega
  | ⟨1, _⟩ => show win1_1.index t (1 : Fin 2) * 128 + 1 * q.val = q.val; rw [e11]; omega

/-- The row block's entry `(p, q)` is the feature product's at row `1024 (t / 4) + p`, column `q`. -/
theorem supRowBlk_apply (c : Dev nD) (t : Fin cfg1.N) (p : Fin 1024) (q : Fin 128) (r : Fin 8192)
    (hr : r.val = t.val / 4 * 1024 + p.val) :
    supRowBlk V c t (ix2 p q) = supArr V c (ix2 r q) := by
  obtain ⟨-, -, -, -, e20, e21, -⟩ := idx_facts1 t
  show ((cfg1.win 2).blk t).view.read (Elt Ideal) (V c (Pipeline.arrRef spec1 2)) (ix2 p q) = _
  rw [View.read_apply]
  show V c main_v0 _ = V c main_v0 _
  refine congrArg (V c main_v0) (funext fun a => Fin.ext ?_)
  match a with
  | ⟨0, _⟩ => show win1_2.index t (0 : Fin 2) * 1024 + 1 * p.val = r.val; rw [e20, hr]; omega
  | ⟨1, _⟩ => show win1_2.index t (1 : Fin 2) * 128 + 1 * q.val = q.val; rw [e21]; omega

/-- The bias block is the bias row. -/
theorem biasBlk_apply (c : Dev nD) (t : Fin cfg1.N) (q : Fin 128) :
    biasBlk V c t (ix2 (0 : Fin 1) q) = biasRow V c (ix2 (0 : Fin 1) q) := by
  obtain ⟨-, -, -, -, -, -, e30, e31, -⟩ := idx_facts1 t
  show ((cfg1.win 3).blk t).view.read (Elt Ideal) (V c (Pipeline.arrRef spec1 3)) (ix2 (0 : Fin 1) q) = _
  rw [View.read_apply]
  show V c main_v1 _ = V c main_v1 _
  refine congrArg (V c main_v1) (funext fun a => Fin.ext ?_)
  match a with
  | ⟨0, _⟩ => show win1_3.index t (0 : Fin 2) * 1 + 1 * 0 = 0; rw [e30]
  | ⟨1, _⟩ => show win1_3.index t (1 : Fin 2) * 128 + 1 * q.val = q.val; rw [e31]; omega

/-! ## Partial sums over the first column blocks -/

/-- A function of the 8192 columns, continued by zero to every natural number: partial sums over the leading columns are then
    sums over an initial segment of the naturals. -/
def ext0 (f : Fin 8192 → EReal) (n : ℕ) : EReal := if h : n < 8192 then f ⟨n, h⟩ else 0

theorem ext0_of_val (f : Fin 8192 → EReal) (n : ℕ) (j : Fin 8192) (h : j.val = n) : ext0 f n = f j := by
  subst h; unfold ext0; rw [dif_pos j.isLt]

/-- Over all 8192 columns the partial sum is the sum. -/
theorem sum_range_ext0 (f : Fin 8192 → EReal) : ∑ n ∈ Finset.range 8192, ext0 f n = ∑ j : Fin 8192, f j := by
  rw [Finset.sum_range]
  exact Finset.sum_congr rfl fun j _ => ext0_of_val f j.val j rfl

/-- The partial sum over `k + 1` column blocks is the one over `k` blocks plus the next 2048 columns. -/
theorem sum_range_block (f : Fin 8192 → EReal) (k : ℕ) :
    ∑ n ∈ Finset.range ((k + 1) * 2048), ext0 f n
      = (∑ n ∈ Finset.range (k * 2048), ext0 f n) + ∑ kk : Fin 2048, ext0 f (k * 2048 + kk.val) := by
  rw [show (k + 1) * 2048 = k * 2048 + 2048 by ring, Finset.sum_range_add]
  exact congrArg (_ + ·) (Finset.sum_range _)

/-- The zeros the first column block starts from. -/
theorem zero_acc_apply (p : Fin 1024) (q : Fin 128) : (k1_pay1 (F := Ideal)) (ix2 p q) = 0 := by
  unfold k1_pay1
  rw [shapeCast_self]
  exact Ideal.ofBits_zero_f32
theorem zero_rs_apply (p : Fin 1024) : (k1_pay2 (F := Ideal)) (ix2 p (0 : Fin 1)) = 0 := by
  unfold k1_pay2
  rw [shapeCast_self]
  exact Ideal.ofBits_zero_f32

/-! ## The two scratch accumulators, point by point -/

/-- One point's update of the product accumulator: from the partial sum over the column blocks before the point's to the one
    that includes it, at the row `r = 1024 (t / 4) + p` of the arrays. -/
theorem acc_step (c : Dev nD) (t : Fin cfg1.N) (acc0 : Vec Ideal S1024x128 .f32) (p : Fin 1024) (q : Fin 128) (r : Fin 8192)
    (hr : r.val = t.val / 4 * 1024 + p.val)
    (h0 : acc0 (ix2 p q) = ∑ n ∈ Finset.range (t.val % 4 * 2048), ext0 (fun j => adjArr V c (ix2 r j) * supArr V c (ix2 j q)) n) :
    accNext (adjBlk V c t) (supColBlk V c t) acc0 (ix2 p q)
      = ∑ n ∈ Finset.range ((t.val % 4 + 1) * 2048), ext0 (fun j => adjArr V c (ix2 r j) * supArr V c (ix2 j q)) n := by
  rw [sum_range_block, ← h0]
  refine (accNext_apply (adjBlk V c t) (supColBlk V c t) acc0 p q).trans ?_
  refine congrArg (acc0 (ix2 p q) + ·) (Finset.sum_congr rfl fun k _ => ?_)
  have hlt : t.val % 4 * 2048 + k.val < 8192 := by have := k.isLt; omega
  rw [ext0_of_val _ _ ⟨t.val % 4 * 2048 + k.val, hlt⟩ rfl,
    adjBlk_apply V c t p k r ⟨t.val % 4 * 2048 + k.val, hlt⟩ hr rfl, supColBlk_apply V c t k q ⟨t.val % 4 * 2048 + k.val, hlt⟩ rfl]

/-- One point's update of the row-sum accumulator, likewise. -/
theorem rs_step (c : Dev nD) (t : Fin cfg1.N) (rs0 : Vec Ideal S1024x1 .f32) (p : Fin 1024) (r : Fin 8192)
    (hr : r.val = t.val / 4 * 1024 + p.val)
    (h0 : rs0 (ix2 p (0 : Fin 1)) = ∑ n ∈ Finset.range (t.val % 4 * 2048), ext0 (fun j => adjArr V c (ix2 r j)) n) :
    rsNext (adjBlk V c t) rs0 (ix2 p (0 : Fin 1))
      = ∑ n ∈ Finset.range ((t.val % 4 + 1) * 2048), ext0 (fun j => adjArr V c (ix2 r j)) n := by
  rw [sum_range_block, ← h0]
  refine (rsNext_apply (adjBlk V c t) rs0 p).trans ?_
  refine congrArg (rs0 (ix2 p (0 : Fin 1)) + ·) (Finset.sum_congr rfl fun k _ => ?_)
  have hlt : t.val % 4 * 2048 + k.val < 8192 := by have := k.isLt; omega
  rw [ext0_of_val _ _ ⟨t.val % 4 * 2048 + k.val, hlt⟩ rfl,
    adjBlk_apply V c t p k r ⟨t.val % 4 * 2048 + k.val, hlt⟩ hr rfl]

/-- After point `n` (row block `n / 4`, column block `n % 4`) the two accumulators hold, at row `p` of the row block — row
    `r = 1024 (n / 4) + p` of the arrays —, the partial sums over the first `(n % 4 + 1) · 2048` columns: of the adjacency's row
    paired with the feature product's column `q`, and of the adjacency's row alone. -/
theorem scr_inv (c : Dev nD) : ∀ (n : ℕ) (hn : n < cfg1.N) (p : Fin 1024) (q : Fin 128) (r : Fin 8192), r.val = n / 4 * 1024 + p.val →
    (scrAt V c n hn).1 (ix2 p q)
        = ∑ m ∈ Finset.range ((n % 4 + 1) * 2048), ext0 (fun j => adjArr V c (ix2 r j) * supArr V c (ix2 j q)) m
      ∧ (scrAt V c n hn).2 (ix2 p (0 : Fin 1))
        = ∑ m ∈ Finset.range ((n % 4 + 1) * 2048), ext0 (fun j => adjArr V c (ix2 r j)) m := by
  intro n
  induction n using Nat.strong_induction_on with
  | _ n ih =>
    intro hn p q r hr
    by_cases h0 : n % 4 = 0
    · have e : scrAt V c n hn = (accNext (adjBlk V c ⟨n, hn⟩) (supColBlk V c ⟨n, hn⟩) (k1_pay1 (F := Ideal)),
          rsNext (adjBlk V c ⟨n, hn⟩) (k1_pay2 (F := Ideal))) := scrAt_reset V c ⟨n, hn⟩ h0
      rw [e]
      dsimp only
      refine ⟨acc_step V c ⟨n, hn⟩ (k1_pay1 (F := Ideal)) p q r hr ?_, rs_step V c ⟨n, hn⟩ (k1_pay2 (F := Ideal)) p r hr ?_⟩
      · rw [show (⟨n, hn⟩ : Fin cfg1.N).val % 4 = 0 from h0, Nat.zero_mul, Finset.range_zero, Finset.sum_empty]
        exact zero_acc_apply p q
      · rw [show (⟨n, hn⟩ : Fin cfg1.N).val % 4 = 0 from h0, Nat.zero_mul, Finset.range_zero, Finset.sum_empty]
        exact zero_rs_apply p
    · have hlt : n - 1 < cfg1.N := Nat.lt_of_le_of_lt (Nat.sub_le _ _) hn
      have e : scrAt V c n hn = (accNext (adjBlk V c ⟨n, hn⟩) (supColBlk V c ⟨n, hn⟩) (scrAt V c (n - 1) hlt).1,
          rsNext (adjBlk V c ⟨n, hn⟩) (scrAt V c (n - 1) hlt).2) := scrAt_add V c ⟨n, hn⟩ h0
      obtain ⟨ia, is⟩ := ih (n - 1) (by omega) hlt p q r (by omega)
      rw [show (n - 1) % 4 + 1 = n % 4 by omega] at ia is
      rw [e]
      dsimp only
      exact ⟨acc_step V c ⟨n, hn⟩ (scrAt V c (n - 1) hlt).1 p q r hr ia, rs_step V c ⟨n, hn⟩ (scrAt V c (n - 1) hlt).2 p r hr is⟩

/-! ## From the stored blocks to the array -/

/-- The entry the output array ends with at row `r`, column `j`. -/
def outAt (c : Dev nD) (r : Fin 8192) (j : Fin 128) : EReal :=
  Ideal.div 1 ((∑ k : Fin 8192, adjArr V c (ix2 r k)) + 1)
      * ((∑ k : Fin 8192, adjArr V c (ix2 r k) * supArr V c (ix2 k j)) + supArr V c (ix2 r j))
    + biasRow V c (ix2 (0 : Fin 1) j)

/-- The output array as one function of its index. -/
def outFn (c : Dev nD) : FVec Ideal S8192x128 .f32 :=
  fun i => outAt V c ⟨(i 0).val, (i 0).isLt⟩ ⟨(i 1).val, (i 1).isLt⟩

/-- What a last column block's point writes back is its row block of that function: the two accumulators hold the full sums over
    the 8192 columns there. -/
theorem flushed4_eq (c : Dev nD) (t : Fin cfg1.N) (hf : (cfg1.win 4).flush t = true) :
    (dat1 V c).flushed 4 t = ((cfg1.win 4).blk t).view.read (Elt Ideal) (outFn V c) := by
  have h3 : t.val % 4 = 3 := (flush1_4 t).mp hf
  have hN : cfg1.N = 32 := N1
  obtain ⟨-, -, -, -, -, -, -, -, e40, e41⟩ := idx_facts1 t
  show (cfg1.win 4).cut (grid1.coords t) ((dat1 V c).after 4 t) = _
  rw [after1_4]
  funext y
  obtain ⟨p, q, rfl⟩ : ∃ (p : Fin 1024) (q : Fin 128), y = ix2 p q := ⟨y 0, y 1, eq_ix2 y⟩
  have hr : t.val / 4 * 1024 + p.val < 8192 := by have := t.isLt; have := p.isLt; omega
  obtain ⟨ha, hs⟩ := scr_inv V c t.val t.isLt p q ⟨t.val / 4 * 1024 + p.val, hr⟩ rfl
  rw [show (t.val % 4 + 1) * 2048 = 8192 by omega, sum_range_ext0] at ha hs
  show outNext (scrAt V c t.val t.isLt).1 (supRowBlk V c t) (scrAt V c t.val t.isLt).2 (biasBlk V c t) (ix2 p q)
    = outFn V c (((cfg1.win 4).blk t).view.emb (ix2 p q))
  refine (outNext_apply (scrAt V c t.val t.isLt).1 (supRowBlk V c t) (scrAt V c t.val t.isLt).2 (biasBlk V c t) p q).trans ?_
  rw [ha, hs, supRowBlk_apply V c t p q ⟨t.val / 4 * 1024 + p.val, hr⟩ rfl, biasBlk_apply V c t q]
  have e : outFn V c (((cfg1.win 4).blk t).view.emb (ix2 p q)) = outAt V c ⟨t.val / 4 * 1024 + p.val, hr⟩ q := by
    unfold outFn
    refine congr (congrArg (outAt V c) (Fin.ext ?_)) (Fin.ext ?_)
    · show win1_4.index t (0 : Fin 2) * 1024 + 1 * p.val = t.val / 4 * 1024 + p.val; rw [e40]; omega
    · show win1_4.index t (1 : Fin 2) * 128 + 1 * q.val = q.val; rw [e41]; omega
  rw [e]
  rfl

/-- Row `r` of the array lies in the block written back at the last point of its row block, `t = 4 (r / 1024) + 3`. -/
theorem cover4 (i : S8192x128.Idx) :
    ∃ t : Fin cfg1.N, (cfg1.win 4).flush t = true ∧ i ∈ ((cfg1.win 4).blk t).view.set := by
  have hN : cfg1.N = 32 := N1
  have h0 : (i 0).val < 8192 := (i 0).isLt
  have h1 : (i 1).val < 128 := (i 1).isLt
  have ht : 4 * ((i 0).val / 1024) + 3 < cfg1.N := by omega
  obtain ⟨-, -, -, -, -, -, -, -, e40, e41⟩ := idx_facts1 ⟨4 * ((i 0).val / 1024) + 3, ht⟩
  refine ⟨⟨4 * ((i 0).val / 1024) + 3, ht⟩, (flush1_4 _).mpr (by show (4 * ((i 0).val / 1024) + 3) % 4 = 3; omega), ?_⟩
  show i ∈ ((View.whole main_v2).slice (win1_4.rect ⟨4 * ((i 0).val / 1024) + 3, ht⟩)).set
  rw [View.set_slice_whole, Rect.mem_set_unit]
  intro a
  match a with
  | ⟨0, _⟩ =>
    show win1_4.index ⟨4 * ((i 0).val / 1024) + 3, ht⟩ (0 : Fin 2) * 1024 ≤ (i 0).val
      ∧ (i 0).val < win1_4.index ⟨4 * ((i 0).val / 1024) + 3, ht⟩ (0 : Fin 2) * 1024 + 1024
    rw [e40]
    show (4 * ((i 0).val / 1024) + 3) / 4 * 1024 ≤ (i 0).val ∧ (i 0).val < (4 * ((i 0).val / 1024) + 3) / 4 * 1024 + 1024
    omega
  | ⟨1, _⟩ =>
    show win1_4.index ⟨4 * ((i 0).val / 1024) + 3, ht⟩ (1 : Fin 2) * 128 ≤ (i 1).val
      ∧ (i 1).val < win1_4.index ⟨4 * ((i 0).val / 1024) + 3, ht⟩ (1 : Fin 2) * 128 + 128
    rw [e41]
    omega

/-- After the second region the output array holds, at row `r` and column `j`: the inverse of (the adjacency's row sum
    plus one) times (the aggregate of the feature product over the row's neighbours plus the row's own entry), plus
    the bias entry — of the adjacency `main_arg1`, the feature product `main_v0` and the bias row `main_v1` as the region
    found them. -/
theorem output_array (c : Dev nD) (r : Fin 8192) (j : Fin 128) :
    (dat1 (F := Ideal) V c).arrAt 4 cfg1.N (ix2 r j)
      = Ideal.div 1 ((∑ k : Fin 8192, adjArr V c (ix2 r k)) + 1)
          * ((∑ k : Fin 8192, adjArr V c (ix2 r k) * supArr V c (ix2 k j)) + supArr V c (ix2 r j))
        + biasRow V c (ix2 (0 : Fin 1) j) := by
  rw [(dat1 V c).arrAt_eq_of_cover 4 (outFn V c) (fun t hf => flushed4_eq V c t hf) cover4]
  rfl

end Cert.KernelIdeal.Hand

end
-- ==== Proof.KernelValue.lean ====
/-
  The idealized kernel's result, at the extended reals.

  The second region enters with the adjacency as launched, the feature product's array at what the first region
  left — the product of the features with the weight, entry by entry — and the bias recast as a 1 × 128 row.  What it
  leaves in the output array at row `r`, column `j` is then the layer's output in the aggregated form, `Cert.Spec.Gat`
  of the four argument arrays.
-/
import proofs.«131101_j59588376264936_1_alg».proof.Proof.RunFacts
import proofs.«131101_j59588376264936_1_alg».proof.Proof.Value0
import proofs.«131101_j59588376264936_1_alg».proof.Proof.Value1
import Idealize.ShloMosaic.Lib.StableHlo.Run
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Value

variable (m : (ℓ : Loc nD τ sig) → Buf (Elt Ideal) ℓ) (ρ : Dev nD → PrngReg)

/-- The four argument arrays of core `c` at launch, at their literal types. -/
abbrev xArg (c : Dev nD) : FVec Ideal S8192x256 .f32 := m ((c.tc : Thread nD τ).loc main_arg0)
abbrev aArg (c : Dev nD) : FVec Ideal S8192x8192 .f32 := m ((c.tc : Thread nD τ).loc main_arg1)
abbrev wArg (c : Dev nD) : FVec Ideal S256x128 .f32 := m ((c.tc : Thread nD τ).loc main_arg2)
abbrev bArg (c : Dev nD) : FVec Ideal S128 .f32 := m ((c.tc : Thread nD τ).loc main_arg3)

/-- The second region finds the adjacency as launched. -/
theorem adj_entry (c : Dev nD) : adjArr (V2 m ρ) c = aArg m c :=
  (W2_of m ρ c main_arg1 (by decide)).trans (W1_of_ne m ρ c main_arg1 (by decide))

/-- It finds the feature product's array at the product of the features with the weight. -/
theorem sup_entry (c : Dev nD) (k : Fin 8192) (j : Fin 128) :
    supArr (V2 m ρ) c (ix2 k j) = Cert.Spec.support (xArg m c) (wArg m c) k j :=
  (congrFun ((W2_of m ρ c main_v0 (by decide)).trans (W1_arr m ρ c 2)) (ix2 k j)).trans (support_array (V0 m ρ) c k j)

/-- It finds the bias as a row. -/
theorem bias_entry (c : Dev nD) (j : Fin 128) : biasRow (V2 m ρ) c (ix2 (0 : Fin 1) j) = bArg m c (ix1 j) := by
  have e : (W1 m ρ c (Proc.devRef .tc main_arg3) : FVec Ideal S128 .f32) = bArg m c := W1_of_ne m ρ c main_arg3 (by decide)
  show StableHlo.after hostOps1 (W1 m ρ c) (Proc.devRef .tc main_v1) (ix2 (0 : Fin 1) j) = _
  after_results
  show shapeCast S1x128 (W1 m ρ c (Proc.devRef .tc main_arg3) : FVec Ideal S128 .f32) shapeCasts_S128_S1x128 (ix2 (0 : Fin 1) j) = _
  rw [e]
  exact shapeCast_a_1a_apply _ _ _ _

/-- THE VALUE: after the run the output array holds the layer's output, in the aggregated form, of the argument arrays. -/
theorem result_value (c : Dev nD) (r : Fin 8192) (j : Fin 128) :
    (W3 m ρ c (Proc.devRef .tc main_v2) : FVec Ideal S8192x128 .f32) (ix2 r j) = Cert.Spec.Gat (xArg m c) (aArg m c) (wArg m c) (bArg m c) r j := by
  have hsum : (∑ k : Fin 8192, aArg m c (ix2 r k) * supArr (V2 m ρ) c (ix2 k j))
      = ∑ k : Fin 8192, aArg m c (ix2 r k) * Cert.Spec.support (xArg m c) (wArg m c) k j :=
    Finset.sum_congr rfl fun k _ => by rw [sup_entry m ρ c k j]
  refine (congrFun (W3_out m ρ c) (ix2 r j)).trans ?_
  rw [output_array (V2 m ρ) c r j, adj_entry, bias_entry, sup_entry m ρ c r j, hsum]
  rfl

/-- The same, as the whole array. -/
theorem result_array (c : Dev nD) :
    (W3 m ρ c (Proc.devRef .tc main_v2) : FVec Ideal S8192x128 .f32) = Cert.Spec.G (xArg m c) (aArg m c) (wArg m c) (bArg m c) := by
  funext i
  obtain ⟨r, j, rfl⟩ : ∃ (r : Fin 8192) (j : Fin 128), i = ix2 r j := ⟨i 0, i 1, eq_ix2 i⟩
  exact (result_value m ρ c r j).trans (Cert.Spec.G_apply _ _ _ _ r j).symm

end Value

end Cert.KernelIdeal.Hand

end
-- ==== Proof.RefValue.lean ====
/-
  The reference program, read at an index.

  The reference adds the identity to the adjacency (self loops), sums each row to the degree, inverts it, keeps the
  inverse where it is a number (at the extended reals every value equals itself, so the test "is not equal to itself"
  fails everywhere and the inverse is kept in every row), scales every row of the matrix by its inverse degree,
  multiplies the scaled matrix with the feature product `x · w`, and adds the bias.  Read at row `r` and column `j`
  that is the normalised form of `Cert.Spec`, which equals the aggregated form `Cert.Spec.G` when the entries are real
  numbers and no degree is zero (`Cert.Spec.normalised_eq_aggregated`).
-/
import proofs.«131101_j59588376264936_1_alg».proof.Defs
import proofs.«131101_j59588376264936_1_alg».proof.Proof.Gen.ReferenceIdeal.Run
import proofs.«131101_j59588376264936_1_alg».proof.Proof.Gen.ReferenceIdeal.Read
import proofs.«131101_j59588376264936_1_alg».proof.Proof.Spec
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-- Two coordinates below 8192, written as 32-bit words, are the same word exactly when they are the same coordinate:
    8192 is far below 2^32, so nothing wraps. -/
theorem word_eq_iff (r k : Fin 8192) : (BitVec.ofNat 32 r.val == BitVec.ofNat 32 k.val) = decide (r = k) := by
  rw [Bool.eq_iff_iff, beq_iff_eq, decide_eq_true_eq]
  constructor
  · intro h
    have h' := congrArg BitVec.toNat h
    simp only [BitVec.toNat_ofNat] at h'
    have hr := r.isLt
    have hk := k.isLt
    exact Fin.ext (by omega)
  · rintro rfl
    rfl

/-- The identity entry the reference builds: the test "row counter plus zero equals column counter", read as an
    unsigned integer and converted, is one on the diagonal and zero off it. -/
theorem eye_entry (r k : Fin 8192) :
    FloatOps.uitofp (F := Ideal) .f32 (IntOp.cmpi .eq (IntOp.addi (BitVec.ofNat 32 r.val) 0#32) (BitVec.ofNat 32 k.val))
      = Cert.Spec.eye r k := by
  show (((BitVec.ofBool (BitVec.ofNat 32 r.val + 0#32 == BitVec.ofNat 32 k.val)).toNat : ℝ) : EReal) = if r = k then 1 else 0
  rw [BitVec.add_zero, word_eq_iff]
  by_cases h : r = k
  · simp [h]
  · simp [h]

/-- The adjacency with self loops, at row `r` and column `k`. -/
theorem loops_at (a : FVec Ideal S8192x8192 .f32) (r k : Fin 8192) :
    Read.val_main_v6 (F := Ideal) a (ix2 r k) = a (ix2 r k) + Cert.Spec.eye r k := by
  rw [Read.val_main_v6_apply, Read.val_main_v5_apply, Read.val_main_v4_apply, Read.val_main_v3_apply,
    Read.val_main_v0_apply, Read.val_main_v1_apply, Read.val_main_v2_apply, Read.val_main_c_apply, Ideal.addf_def]
  exact congrArg (a (ix2 r k) + ·) (eye_entry r k)

/-- The degree of row `r`, self loop counted: the sum starts from zero. -/
theorem degree_at (a : FVec Ideal S8192x8192 .f32) (r : Fin 8192) :
    Read.val_main_v7 (F := Ideal) a (ix1 r) = ∑ k : Fin 8192, (a (ix2 r k) + Cert.Spec.eye r k) := by
  rw [Read.val_main_v7_apply, Read.val_main_cst_apply, Ideal.ofBits_def, Ideal.ofBits_zero_f32, zero_add]
  refine Finset.sum_congr rfl fun k _ => ?_
  have e : Read.idx_main_v7 (ix1 r) k = ix2 r k :=
    funext fun d => Fin.ext (by match d with | ⟨0, _⟩ => rfl | ⟨1, _⟩ => rfl)
  rw [e, loops_at]

/-- The inverse degree of row `r`.  Every extended real equals itself, so the test "differs from itself" is the bit
    zero and the select keeps the quotient. -/
theorem inv_degree_at (a : FVec Ideal S8192x8192 .f32) (r : Fin 8192) :
    Read.val_main_v11 (F := Ideal) a (ix1 r) = Ideal.div 1 (∑ k : Fin 8192, (a (ix2 r k) + Cert.Spec.eye r k)) := by
  have h9 : Read.val_main_v9 (F := Ideal) a (ix1 r) = Ideal.div 1 (∑ k : Fin 8192, (a (ix2 r k) + Cert.Spec.eye r k)) := by
    rw [Read.val_main_v9_apply, Read.val_main_v8_apply, Read.val_main_cst_0_apply, degree_at, Ideal.hostDivf_def,
      Ideal.ofBits_def, Ideal.ofBits_one_f32]
  have hself : ∀ v : EReal, Ideal.cmp .une v v = 0#1 := fun v => by simp [Ideal.cmp]
  rw [Read.val_main_v11_apply, Read.val_main_v10_apply, h9, Ideal.cmpf_def, hself, select_zero]

/-- The normalised adjacency at row `r`, column `k`: the row's inverse degree times the entry with its self loop. -/
theorem scaled_at (a : FVec Ideal S8192x8192 .f32) (r k : Fin 8192) :
    Read.val_main_v14 (F := Ideal) a (ix2 r k)
      = Ideal.div 1 (∑ k' : Fin 8192, (a (ix2 r k') + Cert.Spec.eye r k')) * (a (ix2 r k) + Cert.Spec.eye r k) := by
  have e13 : Read.idx_main_v13 (ix2 r k) = ix2 r (0 : Fin 1) :=
    funext fun d => Fin.ext (by match d with | ⟨0, _⟩ => rfl | ⟨1, _⟩ => rfl)
  have e12 : Read.idx_main_v12 (ix2 r (0 : Fin 1)) = ix1 r :=
    funext fun d => Fin.ext (by match d with | ⟨0, _⟩ => rfl)
  rw [Read.val_main_v14_apply, Read.val_main_v13_apply, e13, Read.val_main_v12_apply, e12, inv_degree_at, loops_at,
    Ideal.mulf_def]

/-- The feature product at row `k`, column `j`. -/
theorem support_at (x : FVec Ideal S8192x256 .f32) (w : FVec Ideal S256x128 .f32) (k : Fin 8192) (j : Fin 128) :
    Read.val_main_v15 (F := Ideal) x w (ix2 k j) = Cert.Spec.support x w k j := by
  rw [Read.val_main_v15_apply]
  unfold Cert.Spec.support
  refine Finset.sum_congr rfl fun f _ => ?_
  have el : Read.lidx_main_v15 (ix2 k j) f = ix2 k f :=
    funext fun d => Fin.ext (by match d with | ⟨0, _⟩ => rfl | ⟨1, _⟩ => rfl)
  have er : Read.ridx_main_v15 (ix2 k j) f = ix2 f j :=
    funext fun d => Fin.ext (by match d with | ⟨0, _⟩ => rfl | ⟨1, _⟩ => rfl)
  rw [el, er]

/-- The normalised adjacency times the feature product, at row `r`, column `j`. -/
theorem aggregate_at (x : FVec Ideal S8192x256 .f32) (a : FVec Ideal S8192x8192 .f32) (w : FVec Ideal S256x128 .f32)
    (r : Fin 8192) (j : Fin 128) :
    Read.val_main_v16 (F := Ideal) x a w (ix2 r j)
      = ∑ k : Fin 8192, (Ideal.div 1 (∑ k' : Fin 8192, (a (ix2 r k') + Cert.Spec.eye r k')) * (a (ix2 r k) + Cert.Spec.eye r k))
          * Cert.Spec.support x w k j := by
  rw [Read.val_main_v16_apply]
  refine Finset.sum_congr rfl fun k _ => ?_
  have el : Read.lidx_main_v16 (ix2 r j) k = ix2 r k :=
    funext fun d => Fin.ext (by match d with | ⟨0, _⟩ => rfl | ⟨1, _⟩ => rfl)
  have er : Read.ridx_main_v16 (ix2 r j) k = ix2 k j :=
    funext fun d => Fin.ext (by match d with | ⟨0, _⟩ => rfl | ⟨1, _⟩ => rfl)
  rw [el, er, scaled_at, support_at]

/-- The bias, repeated down the rows, at row `r`, column `j`. -/
theorem bias_at (b : FVec Ideal S128 .f32) (r : Fin 8192) (j : Fin 128) :
    Read.val_main_v18 (F := Ideal) b (ix2 r j) = b (ix1 j) := by
  have e18 : Read.idx_main_v18 (ix2 r j) = ix2 (0 : Fin 1) j :=
    funext fun d => Fin.ext (by match d with | ⟨0, _⟩ => rfl | ⟨1, _⟩ => rfl)
  have e17 : Read.idx_main_v17 (ix2 (0 : Fin 1) j) = ix1 j :=
    funext fun d => Fin.ext (by match d with | ⟨0, _⟩ => rfl)
  rw [Read.val_main_v18_apply, e18, Read.val_main_v17_apply, e17]

/-- The reference's last stage, as a function of the four argument arrays, is the layer's output `Cert.Spec.G`:
    entries real numbers, no degree zero. -/
theorem reference_is_G (x : FVec Ideal S8192x256 .f32) (a : FVec Ideal S8192x8192 .f32) (w : FVec Ideal S256x128 .f32) (b : FVec Ideal S128 .f32)
    (hx : ∀ i, ∃ v : ℝ, x i = (v : EReal)) (ha : ∀ i, ∃ v : ℝ, a i = (v : EReal)) (hw : ∀ i, ∃ v : ℝ, w i = (v : EReal))
    (hdeg : ∀ r : Fin 8192, (∑ k : Fin 8192, (a (ix2 r k) + Cert.Spec.eye r k)) ≠ 0) :
    Cert.ReferenceIdeal.Read.val_main_v19 (F := Ideal) x a w b = Cert.Spec.G x a w b := by
  funext i
  obtain ⟨r, j, rfl⟩ : ∃ (r : Fin 8192) (j : Fin 128), i = ix2 r j := ⟨i 0, i 1, eq_ix2 i⟩
  rw [Read.val_main_v19_apply, aggregate_at, bias_at, Ideal.addf_def, Cert.Spec.G_apply]
  exact Cert.Spec.normalised_eq_aggregated x a w b hx ha hw hdeg r j

end Cert.ReferenceIdeal.RefValue

end
-- ==== Proof.PreFacts.lean ====
/-
  What the precondition says of the argument arrays, at the extended reals.

  The precondition is a conjunction of five tests, each an "all" over an array: the absolute value of every entry
  of each of the four arrays is below `+∞`, and every row sum of the adjacency plus the identity is different from
  zero.  An extended real whose absolute value is below `+∞` is a real number; so the entries are real numbers, and
  no row's degree (self loop counted) is zero.

  The reading goes entry by entry.  An "all" that came out one had a one at every index.  At one index the first four
  tests compare `max u (-u)` with the value of the word `0x7F800000`, which is `+∞`; of the three kinds of extended
  real only a real number passes.  The fifth test compares, at row `r`, the sum over the columns `k` of the adjacency
  entry plus the identity entry with the value of the zero word, which is `0`; the identity entry is the bit
  "row coordinate plus zero equals column coordinate" read as a number, and two coordinates below `8192` have equal
  32-bit words only when they are equal, so that entry is `1` on the diagonal and `0` off it.
-/
import proofs.«131101_j59588376264936_1_alg».proof.Pre_finite_inputs
import proofs.«131101_j59588376264936_1_alg».proof.Proof.Gen.Pre_finite_inputs
import proofs.«131101_j59588376264936_1_alg».proof.Proof.Spec
import Idealize.ShloMosaic.Lib.ReduceAll
import Idealize.ShloMosaic.Lib.ValueIdx
import Idealize.ShloMosaic.PureOps.Ideal.Laws

noncomputable section

open scoped BigOperators

namespace Cert.PreFacts

open Idealize.ShloMosaic Idealize.ShloMosaic.ValueIdx Cert.Pre_finite_inputs

/-- The shape with no axes has exactly one index. -/
local instance : Subsingleton S_.Idx := ⟨fun a b => funext fun d => d.elim0⟩

/-- The word `0x7F800000` (sign 0, exponent all ones, fraction 0) denotes `+∞`. -/
theorem inf_bits : Ideal.ofBits .f32 0x7F800000#32 = (⊤ : EReal) := by simp [Ideal.ofBits, Ideal.ieee]

/-- An extended real whose absolute value `max u (-u)` is below `+∞` is a real number: for `u = ⊥` and for `u = ⊤`
    the maximum is `⊤`. -/
theorem real_of_abs_lt_top (u : EReal) (h : max u (-u) < ⊤) : ∃ v : ℝ, u = (v : EReal) := by
  induction u using EReal.rec with
  | bot => simp at h
  | coe v => exact ⟨v, rfl⟩
  | top => simp at h

/-- A bit made from a truth value is one exactly when the truth value holds. -/
theorem ofBool_eq_one {b : Bool} : BitVec.ofBool b = 1#1 ↔ b = true := by cases b <;> decide

/-- One entry of the test "the absolute value is below `+∞`", over any shape: where the test's bit is one, the entry
    is a real number. -/
theorem real_of_test {S : Shape} (hb : S_.BroadcastsInDim S (![] : Fin 0 → Fin S.rank)) (x : FVec Ideal S .f32) (i : S.Idx)
    (e : cmpf .olt (Host.absf x) (broadcastInDim S ![] hb (constant S_ .f32 0x7F800000#32)) i = 1#1) :
    ∃ v : ℝ, x i = (v : EReal) := by
  have e' : Ideal.cmp .olt (max (x i) (-(x i))) (Ideal.ofBits .f32 0x7F800000#32) = 1#1 := e
  rw [inf_bits] at e'
  refine real_of_abs_lt_top (x i) ?_
  simpa [Ideal.cmp, ofBool_eq_one] using e'

/-- Two coordinates below `8192` give the same 32-bit word only when they are equal: both are below `2 ^ 32`, so each
    word's value is the coordinate itself. -/
theorem ofNat_inj (r k : Fin 8192) : BitVec.ofNat 32 r.val = BitVec.ofNat 32 k.val ↔ r = k := by
  constructor
  · intro e
    have e' := congrArg BitVec.toNat e
    simp only [BitVec.toNat_ofNat] at e'
    have hr := r.isLt
    have hk := k.isLt
    rw [Nat.mod_eq_of_lt (by omega), Nat.mod_eq_of_lt (by omega)] at e'
    exact Fin.ext e'
  · rintro rfl; rfl

/-- The precondition's identity matrix (the row coordinate plus zero compared for equality with the column coordinate,
    the resulting bit read as a number) is, at row `r` and column `k`, one on the diagonal and zero off it. -/
theorem eye_entry (hb : S_.BroadcastsInDim S8192x8192 (![] : Fin 0 → Fin S8192x8192.rank)) (r k : Fin 8192) :
    uitofp (F := Ideal) .f32 (cmpi .eq (addi (iotaInDim S8192x8192 32 0) (broadcastInDim S8192x8192 ![] hb (constantI S_ 32 0#32)))
      (iotaInDim S8192x8192 32 1)) (ix2 r k) = Cert.Spec.eye r k := by
  show (((IntOp.cmpi .eq (IntOp.addi (BitVec.ofNat 32 r.val) 0#32) (BitVec.ofNat 32 k.val)).toNat : ℝ) : EReal) = _
  by_cases hrk : r = k
  · subst hrk
    simp [IntOp.cmpi, IntOp.addi, Cert.Spec.eye]
  · have hne : ¬ BitVec.ofNat 32 r.val = BitVec.ofNat 32 k.val := fun e => hrk ((ofNat_inj r k).1 e)
    simp [IntOp.cmpi, IntOp.addi, Cert.Spec.eye, hrk, hne]

/-- The sum along the second axis, started from the zero word, read at row `r`: the sum over the columns `k` of the
    entry at `(r, k)`. -/
theorem row_sum (h' : S8192x8192.ReducesTo [1] S8192) (hu : 0 < S_.numel) (y : FVec Ideal S8192x8192 .f32) (r : Fin 8192) :
    Host.reduceAdd y (constant S_ .f32 0x00000000#32) h' hu (ix1 r) = ∑ k : Fin 8192, y (ix2 r k) := by
  show Ideal.hostReduceAdd h' y (Ideal.ofBits .f32 0x00000000#32) (ix1 r) = _
  rw [Ideal.hostReduceAdd_single h' (by decide), Ideal.ofBits_zero_f32, zero_add]
  refine Finset.sum_congr rfl fun k _ => ?_
  exact congrArg y (funext fun a => Fin.ext (by match a with | ⟨0, _⟩ => rfl | ⟨1, _⟩ => rfl))

/-- One entry of the test "the row sum of the adjacency plus the identity differs from zero": where the test's bit at
    row `r` is one, the sum over `k` of `a (r, k) + δ r k` is not zero. -/
theorem deg_of_test (hb : S_.BroadcastsInDim S8192x8192 (![] : Fin 0 → Fin S8192x8192.rank))
    (h' : S8192x8192.ReducesTo [1] S8192) (hu : 0 < S_.numel) (hb1 : S_.BroadcastsInDim S8192 (![] : Fin 0 → Fin S8192.rank))
    (a : FVec Ideal S8192x8192 .f32) (r : Fin 8192)
    (e : cmpf .une
        (Host.reduceAdd
          (addf a (uitofp .f32 (cmpi .eq (addi (iotaInDim S8192x8192 32 0) (broadcastInDim S8192x8192 ![] hb (constantI S_ 32 0#32)))
            (iotaInDim S8192x8192 32 1))))
          (constant S_ .f32 0x00000000#32) h' hu)
        (broadcastInDim S8192 ![] hb1 (constant S_ .f32 0x00000000#32)) (ix1 r) = 1#1) :
    (∑ k : Fin 8192, (a (ix2 r k) + Cert.Spec.eye r k)) ≠ 0 := by
  have e' : Ideal.cmp .une
      (Host.reduceAdd
          (addf a (uitofp .f32 (cmpi .eq (addi (iotaInDim S8192x8192 32 0) (broadcastInDim S8192x8192 ![] hb (constantI S_ 32 0#32)))
            (iotaInDim S8192x8192 32 1))))
          (constant S_ .f32 0x00000000#32) h' hu (ix1 r))
      (Ideal.ofBits .f32 0x00000000#32) = 1#1 := e
  rw [row_sum, Ideal.ofBits_zero_f32] at e'
  have hent : ∀ k : Fin 8192,
      addf a (uitofp .f32 (cmpi .eq (addi (iotaInDim S8192x8192 32 0) (broadcastInDim S8192x8192 ![] hb (constantI S_ 32 0#32)))
            (iotaInDim S8192x8192 32 1))) (ix2 r k) = a (ix2 r k) + Cert.Spec.eye r k := fun k =>
    congrArg (a (ix2 r k) + ·) (eye_entry hb r k)
  simp only [hent] at e'
  simpa [Ideal.cmp, ofBool_eq_one] using e'

/-- The precondition, all ones, gives: every entry of the features, the adjacency and the weight is a real number,
    and no row sum of the adjacency plus the identity is zero. -/
theorem of_pre [Cert.Pre_finite_inputs.Facts]
    (x : FVec Ideal S8192x256 .f32) (a : FVec Ideal S8192x8192 .f32) (w : FVec Ideal S256x128 .f32) (b : FVec Ideal S128 .f32)
    (h : Cert.Pre_finite_inputs.fn (F := Ideal) x a w b = fun _ => 1#1) :
    (∀ i, ∃ v : ℝ, x i = (v : EReal)) ∧ (∀ i, ∃ v : ℝ, a i = (v : EReal)) ∧ (∀ i, ∃ v : ℝ, w i = (v : EReal))
      ∧ ∀ r : Fin 8192, (∑ k : Fin 8192, (a (ix2 r k) + Cert.Spec.eye r k)) ≠ 0 := by
  -- the one result bit, as the conjunction of the five "all" bits
  have h0 := congrFun h ValueIdx.ix0
  dsimp only [fn, fn_part1] at h0
  obtain ⟨h1234, h5⟩ := IntOp.andi_eq_one.1 h0
  obtain ⟨h123, _⟩ := IntOp.andi_eq_one.1 h1234
  obtain ⟨h12, h3⟩ := IntOp.andi_eq_one.1 h123
  obtain ⟨h1, h2⟩ := IntOp.andi_eq_one.1 h12
  -- each "all" gives its test at every index; each test is read at that index
  exact ⟨fun i => real_of_test _ x i (Host.reduce_andi_all _ _ _ _ ix0 h1 i),
    fun i => real_of_test _ a i (Host.reduce_andi_all _ _ _ _ ix0 h2 i),
    fun i => real_of_test _ w i (Host.reduce_andi_all _ _ _ _ ix0 h3 i),
    fun r => deg_of_test _ _ _ _ a r (Host.reduce_andi_all _ _ _ _ ix0 h5 (ix1 r))⟩

end Cert.PreFacts

end
-- ==== Proof.lean ====
/-
  The certificate of a graph-convolution layer: a Pallas kernel pair against its jnp reference, over the extended reals.

  THE LAYER.  With `s = x · w` the feature product, `a` the adjacency, and `deg r = (∑ k, a r k) + 1` the degree of node
  `r` with its self loop, the output is `out r j = (1 / deg r) · ((∑ k, a r k · s k j) + s r j) + b j`.

  THE KERNEL computes it in two launches.  The first writes `s`, 1024 rows per grid point.  The second walks the
  adjacency in 1024 × 2048 tiles, 4 per row block, keeping two running sums in scratch — the partial aggregate
  `∑ a · s` and the partial row sum `∑ a` — and at a row block's last tile stores the scaled aggregate plus the bias.
  It never forms `a + I`: the self loop enters as `+ s r j` and `+ 1`.

  THE REFERENCE forms `a + I`, divides each row by its sum, multiplies the normalised matrix with `s`, adds the bias.

  The two are one function where every entry of `x`, `a`, `w` is a real number and no degree is zero: the scale is then
  a real number and the product distributes over the sums (`Cert.Spec.normalised_eq_aggregated`).  The precondition
  states exactly that: finiteness of the inputs, and that the reference's own divisor, the row sum of `a + I`, is
  nonzero in every row.  (At a zero degree the scale is `1 / 0 = +∞` and the two forms differ.)

  The frames come from one run of @main proved for any float instance (`Hand.run_all`): both regions as segments of
  the several-regions launch, the second region holding the feature product's array, which it reads through two
  windows, at the two halves of the full share.  The reference's frame is its generated run.  The ideal pass rewrote
  nothing, so `preserves` is trivial.
-/
import proofs.«131101_j59588376264936_1_alg».proof.Defs
import proofs.«131101_j59588376264936_1_alg».proof.Proof.Gen.Kernel
import proofs.«131101_j59588376264936_1_alg».proof.Proof.Gen.KernelIdeal
import proofs.«131101_j59588376264936_1_alg».proof.Proof.Gen.ReferenceIdeal
import proofs.«131101_j59588376264936_1_alg».proof.Proof.Gen.ReferenceIdeal.Run
import proofs.«131101_j59588376264936_1_alg».proof.Proof.Gen.ReferenceIdeal.Read
import proofs.«131101_j59588376264936_1_alg».proof.Proof.Gen.Pre_finite_inputs
import proofs.«131101_j59588376264936_1_alg».proof.Proof.KRunFacts
import proofs.«131101_j59588376264936_1_alg».proof.Proof.KernelValue
import proofs.«131101_j59588376264936_1_alg».proof.Proof.RefValue
import proofs.«131101_j59588376264936_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame_all m ρ

/-- So does the idealized kernel. -/
theorem frame_ki : Cert.frame_KernelIdeal := fun m ρ _ => Cert.KernelIdeal.Hand.frame_all m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the extended reals both programs end with the layer's output `Cert.Spec.G` of the argument arrays: the kernel by
    its two regions' values, the reference by distributivity under the precondition. -/
theorem algebraic : Cert.algebraic_KernelIdeal_ReferenceIdeal := by
  intro m ρ m' ρ' hpre hagree
  refine ⟨fun c => Cert.Spec.G (Cert.KernelIdeal.Hand.xArg m c) (Cert.KernelIdeal.Hand.aArg m c) (Cert.KernelIdeal.Hand.wArg m c) (Cert.KernelIdeal.Hand.bArg m c), ?_, ?_⟩
  · refine (θ_run Cert.KernelIdeal.defs _ _).mono (fun r h c => ⟨?_, ?_, ?_, ?_, ?_⟩) (Cert.KernelIdeal.Hand.run_all m ρ)
    · exact (h c _ (Cert.KernelIdeal.Hand.mem_uc Cert.KernelIdeal.main_v2 (by decide))).trans (Cert.KernelIdeal.Hand.result_array m ρ c)
    · exact (h c _ (Cert.KernelIdeal.Hand.mem_uc Cert.KernelIdeal.main_arg0 (by decide))).trans (Cert.KernelIdeal.Hand.W3_main_arg0 m ρ c)
    · exact (h c _ (Cert.KernelIdeal.Hand.mem_uc Cert.KernelIdeal.main_arg1 (by decide))).trans (Cert.KernelIdeal.Hand.W3_main_arg1 m ρ c)
    · exact (h c _ (Cert.KernelIdeal.Hand.mem_uc Cert.KernelIdeal.main_arg2 (by decide))).trans (Cert.KernelIdeal.Hand.W3_main_arg2 m ρ c)
    · exact (h c _ (Cert.KernelIdeal.Hand.mem_uc Cert.KernelIdeal.main_arg3 (by decide))).trans (Cert.KernelIdeal.Hand.W3_main_arg3 m ρ c)
  · refine (θ_run Cert.ReferenceIdeal.defs _ _).mono (fun _ h c => ⟨?_, (h c).2⟩) (Cert.ReferenceIdeal.Value.run (F := Ideal) m' ρ')
    obtain ⟨hx, ha, hw, hdeg⟩ := Cert.PreFacts.of_pre _ _ _ _ (hpre c)
    rw [(h c).1, Cert.ReferenceIdeal.Read.val_main_v19_eq, (hagree c).1, (hagree c).2.1, (hagree c).2.2.1, (hagree c).2.2.2]
    exact Cert.ReferenceIdeal.RefValue.reference_is_G _ _ _ _ hx ha hw hdeg

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
